-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x512 : Shape := ⟨3, ![8192, 32, 512]⟩
abbrev S1024x1024 : Shape := ⟨2, ![1024, 1024]⟩
abbrev S1024 : Shape := ⟨1, ![1024]⟩
abbrev S256x4 : Shape := ⟨2, ![256, 4]⟩
abbrev S4 : Shape := ⟨1, ![4]⟩
abbrev S8192 : Shape := ⟨1, ![8192]⟩
abbrev S_ : Shape := ⟨0, ![]⟩

class Facts : Prop where
  bcast_S_S8192x32x512 : S_.BroadcastsInDim S8192x32x512 (![] : Fin 0 → Fin S8192x32x512.rank)
  reducesTo_S8192x32x512_S_d0_1_2 : S8192x32x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : IVec S8192 32) (main_v28 : IVec S_ 1) (main_v33 : IVec S8192 1) : IVec S_ 1 :=
  let main_c_12 : IVec S_ 1 := constantI S_ 1 1#1
  let main_v34 : IVec S_ 1 := (fun x v => Host.reduce IntOp.andi x v reducesTo_S8192_S_d0 h_S_) main_v33 main_c_12
  let main_v35 : IVec S_ 1 := andi main_v28 main_v34
  let main_c_13 : IVec S_ 32 := constantI S_ 32 2#32
  let main_v36 : IVec S8192 32 := broadcastInDim S8192 ![] bcast_S_S8192 main_c_13
  let main_v37 : IVec S8192 1 := cmpi .sge main_arg7 main_v36
  let main_c_14 : IVec S_ 32 := constantI S_ 32 32#32
  let main_v38 : IVec S8192 32 := broadcastInDim S8192 ![] bcast_S_S8192 main_c_14
  let main_v39 : IVec S8192 1 := cmpi .sle main_arg7 main_v38
  let main_v40 : IVec S8192 1 := andi main_v37 main_v39
  let main_c_15 : IVec S_ 1 := constantI S_ 1 1#1
  let main_v41 : IVec S_ 1 := (fun x v => Host.reduce IntOp.andi x v reducesTo_S8192_S_d0 h_S_) main_v40 main_c_15
  let main_v42 : IVec S_ 1 := andi main_v35 main_v41
  main_v42

def fn_part1 {F : FTy → Type} [FloatOps F] (main_arg4 : FVec F S256x4 .f32) (main_arg5 : FVec F S4 .f32) (main_arg6 : IVec S8192 32) (main_arg7 : IVec S8192 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x4 .f32 := Host.absf main_arg4
  let main_cst_6 : FVec F S_ .f32 := constant S_ .f32 0x7F800000#32
  let main_v20 : FVec F S256x4 .f32 := broadcastInDim S256x4 ![] bcast_S_S256x4 main_cst_6
  let main_v21 : IVec S256x4 1 := cmpf .olt main_v19 main_v20
  let main_c_7 : IVec S_ 1 := constantI S_ 1 1#1
  let main_v22 : IVec S_ 1 := (fun x v => Host.reduce IntOp.andi x v reducesTo_S256x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 1#32
  let main_v29 : IVec S8192 32 := broadcastInDim S8192 ![] bcast_S_S8192 main_c_10
  let main_v30 : IVec S8192 1 := cmpi .sge main_arg6 main_v29
  let main_c_11 : IVec S_ 32 := constantI S_ 32 32#32
  let main_v31 : IVec S8192 32 := broadcastInDim S8192 ![] bcast_S_S8192 main_c_11
  let main_v32 : IVec S8192 1 := cmpi .sle main_arg6 main_v31
  let main_v33 : IVec S8192 1 := andi main_v30 main_v32
  fn_part2 (F := F) main_arg7 main_v28 main_v33

def fn {F : FTy → Type} [FloatOps F] (main_arg0 : FVec F S8192x32x512 .f32) (main_arg1 : FVec F S8192x32x512 .f32) (main_arg2 : FVec F S1024x1024 .f32) (main_arg3 : FVec F S1024 .f32) (main_arg4 : FVec F S256x4 .f32) (main_arg5 : FVec F S4 .f32) (main_arg6 : IVec S8192 32) (main_arg7 : IVec S8192 32) : IVec S_ 1 :=
  let main_v0 : FVec F S8192x32x512 .f32 := Host.absf main_arg0
  let main_cst : FVec F S_ .f32 := constant S_ .f32 0x7F800000#32
  let main_v1 : FVec F S8192x32x512 .f32 := broadcastInDim S8192x32x512 ![] bcast_S_S8192x32x512 main_cst
  let main_v2 : IVec S8192x32x512 1 := cmpf .olt main_v0 main_v1
  let main_c : IVec S_ 1 := constantI S_ 1 1#1
  let main_v3 : IVec S_ 1 := (fun x v => Host.reduce IntOp.andi x v reducesTo_S8192x32x512_S_d0_1_2 h_S_) main_v2 main_c
  let main_v4 : FVec F S8192x32x512 .f32 := Host.absf main_arg1
  let main_cst_0 : FVec F S_ .f32 := constant S_ .f32 0x7F800000#32
  let main_v5 : FVec F S8192x32x512 .f32 := broadcastInDim S8192x32x512 ![] bcast_S_S8192x32x512 main_cst_0
  let main_v6 : IVec S8192x32x512 1 := cmpf .olt main_v4 main_v5
  let main_c_1 : IVec S_ 1 := constantI S_ 1 1#1
  let main_v7 : IVec S_ 1 := (fun x v => Host.reduce IntOp.andi x v reducesTo_S8192x32x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x32x512 : Shape := ⟨3, ![8192, 32, 512]⟩
abbrev S1024x1024 : Shape := ⟨2, ![1024, 1024]⟩
abbrev S1024 : Shape := ⟨1, ![1024]⟩
abbrev S256x4 : Shape := ⟨2, ![256, 4]⟩
abbrev S4 : Shape := ⟨1, ![4]⟩
abbrev S8192 : Shape := ⟨1, ![8192]⟩
abbrev S8192x512 : Shape := ⟨2, ![8192, 512]⟩
abbrev S8192x4 : Shape := ⟨2, ![8192, 4]⟩
abbrev S256x32x256 : Shape := ⟨3, ![256, 32, 256]⟩
abbrev S256 : Shape := ⟨1, ![256]⟩
abbrev S256x512 : Shape := ⟨2, ![256, 512]⟩
abbrev S256x32 : Shape := ⟨2, ![256, 32]⟩
abbrev S256x1 : Shape := ⟨2, ![256, 1]⟩
abbrev S256x32x1 : Shape := ⟨3, ![256, 32, 1]⟩
abbrev S256x256 : Shape := ⟨2, ![256, 256]⟩
abbrev S256x768 : Shape := ⟨2, ![256, 768]⟩
abbrev S256x1024 : Shape := ⟨2, ![256, 1024]⟩
abbrev S1x1024 : Shape := ⟨2, ![1, 1024]⟩
abbrev S1x4 : Shape := ⟨2, ![1, 4]⟩

abbrev nBuf : Space → Nat
  | .hbm => 10
  | .vmem => 16
  | .smem => 0
  | _ => 0

abbrev bufTy : (tb : Table) → Fin (tcTables nBuf tb) → BufTy
  | .hbm, ⟨0, _⟩ => ⟨S8192x32x512, .f32⟩
  | .hbm, ⟨1, _⟩ => ⟨S8192x32x512, .f32⟩
  | .hbm, ⟨2, _⟩ => ⟨S1024x1024, .f32⟩
  | .hbm, ⟨3, _⟩ => ⟨S1024, .f32⟩
  | .hbm, ⟨4, _⟩ => ⟨S256x4, .f32⟩
  | .hbm, ⟨5, _⟩ => ⟨S4, .f32⟩
  | .hbm, ⟨6, _⟩ => ⟨S8192, .i32⟩
  | .hbm, ⟨7, _⟩ => ⟨S8192, .i32⟩
  | .hbm, ⟨8, _⟩ => ⟨S8192x512, .f32⟩
  | .hbm, ⟨9, _⟩ => ⟨S8192x4, .f32⟩
  | .local _ .vmem, ⟨0, _⟩ => ⟨S256x32x256, .f32⟩
  | .local _ .vmem, ⟨1, _⟩ => ⟨S256x32x256, .f32⟩
  | .local _ .vmem, ⟨2, _⟩ => ⟨S256x32x256, .f32⟩
  | .local _ .vmem, ⟨3, _⟩ => ⟨S256x32x256, .f32⟩
  | .local _ .vmem, ⟨4, _⟩ => ⟨S256, .i32⟩
  | .local _ .vmem, ⟨5, _⟩ => ⟨S256, .i32⟩
  | .local _ .vmem, ⟨6, _⟩ => ⟨S256, .i32⟩
  | .local _ .vmem, ⟨7, _⟩ => ⟨S256, .i32⟩
  | .local _ .vmem, ⟨8, _⟩ => ⟨S1024x1024, .f32⟩
  | .local _ .vmem, ⟨9, _⟩ => ⟨S1024, .f32⟩
  | .local _ .vmem, ⟨10, _⟩ => ⟨S256x4, .f32⟩
  | .local _ .vmem, ⟨11, _⟩ => ⟨S4, .f32⟩
  | .local _ .vmem, ⟨12, _⟩ => ⟨S256x512, .f32⟩
  | .local _ .vmem, ⟨13, _⟩ => ⟨S256x512, .f32⟩
  | .local _ .vmem, ⟨14, _⟩ => ⟨S256x4, .f32⟩
  | .local _ .vmem, ⟨15, _⟩ => ⟨S256x4, .f32⟩
  | _, _ => ⟨S8192x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S256_S256_0 : ∀ a, (![0] : Fin 1 → Nat) a + S256.size a ≤ S256.size a
  h_S256 : 0 < S256.numel
  iota_S256x32_d1_w32 : S256x32.Iotas .tc 32 [1]
  shapeCasts_S256_S256x1 : S256.ShapeCasts S256x1
  broadcasts_S256x1_S256x32 : S256x1.Broadcasts S256x32
  natLt_1_32 : 1 < 32
  inb_S256x32x256_S256x32x256_0_0_0 : ∀ a, (![0, 0, 0] : Fin 3 → Nat) a + S256x32x256.size a ≤ S256x32x256.size a
  h_S256x32x256 : 0 < S256x32x256.numel
  shapeCasts_S256x32_S256x32x1 : S256x32.ShapeCasts S256x32x1
  broadcasts_S256x32x1_S256x32x256 : S256x32x1.Broadcasts S256x32x256
  reduces_S256x32x256_S256x256 : S256x32x256.Reduces [1] S256x256
  concatenates_S256x256_S256x256_S256x256_S256x768_d1 : Shape.Concatenates [S256x256, S256x256, S256x256] S256x768 1
  concatenates_S256x768_S256x256_S256x1024_d1 : Shape.Concatenates [S256x768, S256x256] S256x1024 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  concatenates_S256x256_S256x256_S256x512_d1 : Shape.Concatenates [S256x256, S256x256] S256x512 1
  inb_S256x512_S256x512_0_0 : ∀ a, (![0, 0] : Fin 2 → Nat) a + S256x512.size a ≤ S256x512.size a
  h_S256x512 : 0 < S256x512.numel
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  dot_S256x1024_S1024x1024_S256x1024_1_0_0_1_n_n_wf : DotDims.WF S256x1024 S1024x1024 S256x1024 [1] [0] [0] [1] [] []
  dot_S256x256_S256x4_S256x4_1_0_0_1_n_n_wf : DotDims.WF S256x256 S256x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x256.size a ≤ S8192x32x512.size a
  hwx0_0 : ∀ i : grid0.Coords, EltTy.bits .f32 = 32 ∨ (Rect.block (s := S8192x32x512) S256x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x256.size a ≤ S8192x32x512.size a
  hwx0_1 : ∀ i : grid0.Coords, EltTy.bits .f32 = 32 ∨ (Rect.block (s := S8192x32x512) S256x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S8192.size a
  hwx0_2 : ∀ i : grid0.Coords, EltTy.bits .i32 = 32 ∨ (Rect.block (s := S8192) S256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S8192.size a
  hwx0_3 : ∀ i : grid0.Coords, EltTy.bits .i32 = 32 ∨ (Rect.block (s := S8192) S256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S256x4.size a
  hwx0_6 : ∀ i : grid0.Coords, EltTy.bits .f32 = 32 ∨ (Rect.block (s := S256x4) S256x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x512.size a
  hwx0_8 : ∀ i : grid0.Coords, EltTy.bits .f32 = 32 ∨ (Rect.block (s := S8192x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4.size a ≤ S8192x4.size a
  hwx0_9 : ∀ i : grid0.Coords, EltTy.bits .f32 = 32 ∨ (Rect.block (s := S8192x4) S256x4.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x256_S256x4_S256x4_1_0_0_1_n_n : DotDims S256x256 S256x4 S256x4 where
  lhsContracting := [1]
  rhsContracting := [0]
  lhsNonContracting := [0]
  rhsNonContracting := [1]
  lhsBatch := []
  rhsBatch := []
  wf := dot_S256x256_S256x4_S256x4_1_0_0_1_n_n_wf

abbrev win0_0 : Pipeline.Window sig grid0 :=
  Pipeline.Window.ofSpec (Memref.whole main_arg0) S256x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S256x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x32x512 : Shape := ⟨3, ![8192, 32, 512]⟩
abbrev S1024x1024 : Shape := ⟨2, ![1024, 1024]⟩
abbrev S1024 : Shape := ⟨1, ![1024]⟩
abbrev S256x4 : Shape := ⟨2, ![256, 4]⟩
abbrev S4 : Shape := ⟨1, ![4]⟩
abbrev S8192 : Shape := ⟨1, ![8192]⟩
abbrev S_ : Shape := ⟨0, ![]⟩
abbrev S8192x1 : Shape := ⟨2, ![8192, 1]⟩
abbrev S8192x3 : Shape := ⟨2, ![8192, 3]⟩
abbrev S8192x256 : Shape := ⟨2, ![8192, 256]⟩
abbrev S8192x768 : Shape := ⟨2, ![8192, 768]⟩
abbrev S8192x1024 : Shape := ⟨2, ![8192, 1024]⟩
abbrev S1x1024 : Shape := ⟨2, ![1, 1024]⟩
abbrev S8192x512 : Shape := ⟨2, ![8192, 512]⟩
abbrev S8192x4 : Shape := ⟨2, ![8192, 4]⟩
abbrev S1x4 : Shape := ⟨2, ![1, 4]⟩

abbrev nBuf : Space → Nat
  | .hbm => 130
  | .vmem => 0
  | .smem => 0
  | _ => 0

abbrev hbmTy0_0 (i : Nat) : BufTy := match i % 128 with
  | 0 => ⟨S8192x32x512, .f32⟩
  | 1 => ⟨S8192x32x512, .f32⟩
  | 2 => ⟨S1024x1024, .f32⟩
  | 3 => ⟨S1024, .f32⟩
  | 4 => ⟨S256x4, .f32⟩
  | 5 => ⟨S4, .f32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x1, .i32⟩
  | 28 => ⟨S_, .i32⟩
  | 29 => ⟨S8192x1, .i32⟩
  | 30 => ⟨S8192x3, .i32⟩
  | 31 => ⟨S8192x256, .f32⟩
  | 32 => ⟨S_, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x1, .i32⟩
  | 51 => ⟨S_, .i32⟩
  | 52 => ⟨S8192x1, .i32⟩
  | 53 => ⟨S8192x3, .i32⟩
  | 54 => ⟨S8192x256, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x1, .i32⟩
  | 74 => ⟨S_, .i32⟩
  | 75 => ⟨S8192x1, .i32⟩
  | 76 => ⟨S8192x3, .i32⟩
  | 77 => ⟨S8192x256, .f32⟩
  | 78 => ⟨S8192x768, .f32⟩
  | 79 => ⟨S_, .f32⟩
  | 80 => ⟨S8192x256, .f32⟩
  | 81 => ⟨S_, .f32⟩
  | 82 => ⟨S8192x256, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S8192x256, .f32⟩
  | 89 => ⟨S8192x256, .f32⟩
  | 90 => ⟨S8192x256, .f32⟩
  | 91 => ⟨S8192x256, .f32⟩
  | 92 => ⟨S_, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S_, .f32⟩
  | 122 => ⟨S8192x256, .f32⟩
  | 123 => ⟨S8192x256, .f32⟩
  | 124 => ⟨S8192x256, .f32⟩
  | 125 => ⟨S8192x512, .f32⟩
  | 126 => ⟨S8192x4, .f32⟩
  | 127 => ⟨S1x4, .f32⟩
  | _ => ⟨S8192x32x512, .f32⟩

abbrev hbmTy0_1 (i : Nat) : BufTy := match i % 128 with
  | 0 => ⟨S8192x4, .f32⟩
  | 1 => ⟨S8192x4, .f32⟩
  | _ => ⟨S8192x32x512, .f32⟩

abbrev hbmTy (i : Nat) : BufTy := match i / 128 with
  | 0 => hbmTy0_0 i
  | 1 => hbmTy0_1 i
  | _ => ⟨S8192x32x512, .f32⟩

abbrev bufTy : (tb : Table) → Fin (tcTables nBuf tb) → BufTy
  | .hbm, ⟨i, _⟩ => hbmTy i
  | _, _ => ⟨S8192x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_c_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_v37 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_23 : Ref sig .tc := ⟨.hbm, 118, rfl⟩
abbrev main_v85 : Ref sig .tc := ⟨.hbm, 119, rfl⟩
abbrev main_v86 : Ref sig .tc := ⟨.hbm, 120, rfl⟩
abbrev main_cst_24 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  concatenates_S8192x1_S8192x1_S8192x1_S8192x3_d1 : Shape.Concatenates [S8192x1, S8192x1, S8192x1] S8192x3 1
  concatenates_S8192x256_S8192x256_S8192x256_S8192x768_d1 : Shape.Concatenates [S8192x256, S8192x256, S8192x256] S8192x768 1
  bcast_S_S8192x256 : S_.BroadcastsInDim S8192x256 (![] : Fin 0 → Fin S8192x256.rank)
  concatenates_S8192x768_S8192x256_S8192x1024_d1 : Shape.Concatenates [S8192x768, S8192x256] S8192x1024 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x1024_S8192x256_0_0 : S8192x1024.Slices ![0, 0] S8192x256
  slices_S8192x1024_S8192x256_0_256 : S8192x1024.Slices ![0, 256] S8192x256
  slices_S8192x1024_S8192x256_0_512 : S8192x1024.Slices ![0, 512] S8192x256
  slices_S8192x1024_S8192x256_0_768 : S8192x1024.Slices ![0, 768] S8192x256
  concatenates_S8192x256_S8192x256_S8192x512_d1 : Shape.Concatenates [S8192x256, S8192x256] S8192x512 1
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  gather_S8192x32x512_S8192x3_S8192x256_1_01_n_n_012_1_11256_wf : GatherDims.WF S8192x32x512 S8192x3 S8192x256 [1] [0, 1] [] [0, 1, 2] [] 1 ![1, 1, 256]
  dot_S8192x1024_S1024x1024_S8192x1024_1_0_0_1_n_n_wf : DotDims.WF S8192x1024 S1024x1024 S8192x1024 [1] [0] [0] [1] [] []
  dot_S8192x256_S256x4_S8192x4_1_0_0_1_n_n_wf : DotDims.WF S8192x256 S256x4 S8192x4 [1] [0] [0] [1] [] []

variable [Facts₀]

def gather_S8192x32x512_S8192x3_S8192x256_1_01_n_n_012_1_11256 : GatherDims S8192x32x512 S8192x3 S8192x256 where
  offsetDims := [1]
  collapsedSliceDims := [0, 1]
  operandBatchingDims := []
  startIndicesBatchingDims := []
  startIndexMap := [0, 1, 2]
  indexVectorDim := 1
  sliceSizes := ![1, 1, 256]
  wf := gather_S8192x32x512_S8192x3_S8192x256_1_01_n_n_012_1_11256_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x256_S256x4_S8192x4_1_0_0_1_n_n : DotDims S8192x256 S256x4 S8192x4 where
  lhsContracting := [1]
  rhsContracting := [0]
  lhsNonContracting := [0]
  rhsNonContracting := [1]
  lhsBatch := []
  rhsBatch := []
  wf := dot_S8192x256_S256x4_S8192x4_1_0_0_1_n_n_wf

class Facts : Prop extends Facts₀ where

variable [Facts]
-- ==== Proof.Spec.lean ====
/-
  What both programs compute, one batch row at a time. No program is imported here.

  A row owns a buffer sequence and a stack sequence, 32 entries of 512 features each, and two lengths. It takes the
  first 256 features of three entries: the buffer's last (`len_b - 1`), the stack's top (`len_s - 1`) and the
  stack's second (`len_s - 2`). Laid end to end and followed by 256 zeros (the fresh hidden state) they are the
  row's input `x : Fin 1024 → EReal`. One LSTM step from the zero state follows: `gates = x · W + b`, read as four
  runs of 256 (input, candidate, forget, output); the new cell is `σ(input) · tanh(candidate)` — the forget term
  multiplies the zero cell and vanishes —, the new hidden state `tanh(cell) · σ(output)`. The row's state is
  `[cell, hidden]` and its logits are `cell · Wt + bt`.

  Also here: the one law that joins the two programs' ways of taking an entry out of a sequence. Summing the 32
  entries against the indicator of position `k` returns entry `k`, on all extended reals (`0 · x = 0` and
  `0 + x = x` hold at the infinities too, so no finiteness is used).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## One row -/

/-- The row's input: three feature vectors end to end, then 256 zeros. -/
def xcat (a b c : Fin 256 → EReal) (k : Fin 1024) : EReal :=
  if h₁ : k.val < 256 then a ⟨k.val, h₁⟩
  else if h₂ : k.val < 512 then b ⟨k.val - 256, by omega⟩
  else if h₃ : k.val < 768 then c ⟨k.val - 512, by omega⟩
  else 0

/-- The four gate pre-activations, `x · W + b`. -/
def gates (x : Fin 1024 → EReal) (W : (⟨2, ![1024, 1024]⟩ : Shape).Idx → EReal) (b : (⟨1, ![1024]⟩ : Shape).Idx → EReal)
    (n : Fin 1024) : EReal :=
  (∑ k : Fin 1024, x k * W (ix2 k n)) + b (ix1 n)

/-- The new cell: `σ(input gate) · tanh(candidate)`. -/
def cell (x : Fin 1024 → EReal) (W : (⟨2, ![1024, 1024]⟩ : Shape).Idx → EReal) (b : (⟨1, ![1024]⟩ : Shape).Idx → EReal)
    (u : Fin 256) : EReal :=
  Ideal.logistic (gates x W b ⟨u.val, by have := u.isLt; omega⟩)
    * Ideal.tanh (gates x W b ⟨256 + u.val, by have := u.isLt; omega⟩)

/-- The new hidden state: `tanh(cell) · σ(output gate)`. -/
def hidden (x : Fin 1024 → EReal) (W : (⟨2, ![1024, 1024]⟩ : Shape).Idx → EReal) (b : (⟨1, ![1024]⟩ : Shape).Idx → EReal)
    (u : Fin 256) : EReal :=
  Ideal.tanh (cell x W b u) * Ideal.logistic (gates x W b ⟨768 + u.val, by have := u.isLt; omega⟩)

/-- The row's state: cell then hidden. -/
def state (x : Fin 1024 → EReal) (W : (⟨2, ![1024, 1024]⟩ : Shape).Idx → EReal) (b : (⟨1, ![1024]⟩ : Shape).Idx → EReal)
    (j : Fin 512) : EReal :=
  if h : j.val < 256 then cell x W b ⟨j.val, h⟩ else hidden x W b ⟨j.val - 256, by have := j.isLt; omega⟩

/-- The row's logits: `cell · Wt + bt`. -/
def logits (x : Fin 1024 → EReal) (W : (⟨2, ![1024, 1024]⟩ : Shape).Idx → EReal) (b : (⟨1, ![1024]⟩ : Shape).Idx → EReal)
    (Wt : (⟨2, ![256, 4]⟩ : Shape).Idx → EReal) (bt : (⟨1, ![4]⟩ : Shape).Idx → EReal) (q : Fin 4) : EReal :=
  (∑ u : Fin 256, cell x W b u * Wt (ix2 u q)) + bt (ix1 q)

/-! ## The rows of the arrays -/

/-- A sequence array: batch row, entry, feature. -/
abbrev Seq : Type := (⟨3, ![8192, 32, 512]⟩ : Shape).Idx → EReal
/-- A length array: one 32-bit word per batch row. -/
abbrev Lens : Type := (⟨1, ![8192]⟩ : Shape).Idx → BitVec 32

/-- The first 256 features of entry `k` of row `r`. -/
def feat (x : Seq) (r : Fin 8192) (k : Fin 32) (f : Fin 256) : EReal :=
  x (ix3 r k ⟨f.val, by have := f.isLt; omega⟩)

/-- The entry the word `len - d` names, as a position below 32: total in the word, and the word itself when the
    word is in range (`pick_spec`). -/
def pick (lens : Lens) (d : BitVec 32) (r : Fin 8192) : Fin 32 :=
  ⟨(lens (ix1 r) - d).toNat % 32, Nat.mod_lt _ (by decide)⟩

/-- Every row's word `len - d` is a position of the sequence. -/
def InRange (lens : Lens) (d : BitVec 32) : Prop := ∀ r : Fin 8192, (lens (ix1 r) - d).toNat < 32

theorem pick_spec {lens : Lens} {d : BitVec 32} (h : InRange lens d) (r : Fin 8192) :
    lens (ix1 r) - d = BitVec.ofNat 32 (pick lens d r).val := by
  apply BitVec.eq_of_toNat_eq
  have hr := h r
  rw [BitVec.toNat_ofNat]
  show _ = ((lens (ix1 r) - d).toNat % 32) % 2 ^ 32
  rw [Nat.mod_eq_of_lt hr, Nat.mod_eq_of_lt (by omega)]

/-- Row `r`'s input vector. -/
def xrow (bufs stk : Seq) (bl sl : Lens) (r : Fin 8192) : Fin 1024 → EReal :=
  xcat (feat bufs r (pick bl 1#32 r)) (feat stk r (pick sl 1#32 r)) (feat stk r (pick sl 2#32 r))

/-- The state array: row `r`'s state in row `r`. -/
def stateArr (bufs stk : Seq) (W : (⟨2, ![1024, 1024]⟩ : Shape).Idx → EReal) (b : (⟨1, ![1024]⟩ : Shape).Idx → EReal)
    (bl sl : Lens) : (⟨2, ![8192, 512]⟩ : Shape).Idx → EReal :=
  fun i => state (xrow bufs stk bl sl ⟨(i 0).val, (i 0).isLt⟩) W b ⟨(i 1).val, (i 1).isLt⟩

/-- The logits array: row `r`'s logits in row `r`. -/
def logitsArr (bufs stk : Seq) (W : (⟨2, ![1024, 1024]⟩ : Shape).Idx → EReal) (b : (⟨1, ![1024]⟩ : Shape).Idx → EReal)
    (Wt : (⟨2, ![256, 4]⟩ : Shape).Idx → EReal) (bt : (⟨1, ![4]⟩ : Shape).Idx → EReal)
    (bl sl : Lens) : (⟨2, ![8192, 4]⟩ : Shape).Idx → EReal :=
  fun i => logits (xrow bufs stk bl sl ⟨(i 0).val, (i 0).isLt⟩) W b Wt bt ⟨(i 1).val, (i 1).isLt⟩

/-! ## The indicator sum -/

/-- Two positions below 32 are one position iff their 32-bit words are one word. -/
theorem ofNat_eq_iff (l k : Fin 32) : BitVec.ofNat 32 l.val = BitVec.ofNat 32 k.val ↔ l = k := by
  constructor
  · intro h
    have h' := congrArg BitVec.toNat h
    rw [BitVec.toNat_ofNat, BitVec.toNat_ofNat] at h'
    have hl := l.isLt; have hk := k.isLt
    rw [Nat.mod_eq_of_lt (by omega), Nat.mod_eq_of_lt (by omega)] at h'
    exact Fin.ext h'
  · rintro rfl; rfl

/-- The indicator of position `k` at position `l`, as the compare, widen and convert chain gives it: one at `k`,
    zero elsewhere. -/
theorem indicator (l k : Fin 32) :
    ((((IntOp.cmpi .eq (BitVec.ofNat 32 l.val) (BitVec.ofNat 32 k.val)).setWidth 32).toInt : ℝ) : EReal)
      = if l = k then 1 else 0 := by
  by_cases h : l = k
  · subst h
    rw [if_pos rfl]
    have : IntOp.cmpi .eq (BitVec.ofNat 32 l.val) (BitVec.ofNat 32 l.val) = 1#1 := by
      simp [IntOp.cmpi]
    rw [this]
    have : ((1#1 : BitVec 1).setWidth 32).toInt = 1 := by decide
    rw [this]; simp
  · rw [if_neg h]
    have hne : ¬ BitVec.ofNat 32 l.val = BitVec.ofNat 32 k.val := fun e => h ((ofNat_eq_iff l k).mp e)
    have hb : (BitVec.ofNat 32 l.val == BitVec.ofNat 32 k.val) = false := beq_eq_false_iff_ne.mpr hne
    have : IntOp.cmpi .eq (BitVec.ofNat 32 l.val) (BitVec.ofNat 32 k.val) = 0#1 := by
      show BitVec.ofBool (BitVec.ofNat 32 l.val == BitVec.ofNat 32 k.val) = 0#1
      rw [hb]; rfl
    rw [this]
    have : ((0#1 : BitVec 1).setWidth 32).toInt = 0 := by decide
    rw [this]; simp

/-- Summing a sequence's 32 entries against the indicator of position `k` returns entry `k`. -/
theorem indicator_sum (x : Fin 32 → EReal) (w : BitVec 32) (k : Fin 32) (hw : w = BitVec.ofNat 32 k.val) :
    ∑ l : Fin 32, ((((IntOp.cmpi .eq (BitVec.ofNat 32 l.val) w).setWidth 32).toInt : ℝ) : EReal) * x l = x k := by
  subst hw
  rw [Finset.sum_eq_single k]
  · rw [indicator, if_pos rfl, one_mul]
  · intro l _ hl
    rw [indicator, if_neg hl, zero_mul]
  · intro h; exact absurd (Finset.mem_univ k) h

end Cert.Spec

end
-- ==== Proof.Range.lean ====
/-
  The precondition read as arithmetic. Beside the finiteness of the float arrays it says, row by row and signed,
  `1 ≤ len_b ≤ 32` and `2 ≤ len_s ≤ 32`. So the three words `len_b - 1`, `len_s - 1`, `len_s - 2` are positions of
  a 32-entry sequence: each is below 32 read unsigned.
-/
import proofs.«411941_j58884001628710_1_alg».proof.Pre_finite_inputs
import Idealize.ShloMosaic.Lib.ReduceAll
import Idealize.ShloMosaic.Lib.ValueIdx
import Idealize.ShloMosaic.Lib.Affine

noncomputable section

namespace Cert.Range

open Idealize.ShloMosaic Idealize.ShloMosaic.ValueIdx Cert.Pre_finite_inputs

/-- A word between `d` and 32 signed, for `d` one or two, less `d`, is below 32 unsigned. -/
theorem sub_lt (w : BitVec 32) (d : Nat) (hd0 : 1 ≤ d) (hd : d ≤ 2) (h1 : (d : Int) ≤ w.toInt) (h2 : w.toInt ≤ 32) :
    (w - BitVec.ofNat 32 d).toNat < 32 := by
  have hw := w.isLt
  have hn : d ≤ w.toNat ∧ w.toNat ≤ 32 := by
    rw [BitVec.toInt_eq_toNat_cond] at h1 h2
    by_cases hm : 2 * w.toNat < 2 ^ 32
    · rw [if_pos hm] at h1 h2; omega
    · rw [if_neg hm] at h1 h2; omega
  rw [BitVec.toNat_sub, BitVec.toNat_ofNat]
  have : d % 2 ^ 32 = d := Nat.mod_eq_of_lt (by omega)
  rw [this]
  omega

instance : Subsingleton S_.Idx := ⟨fun a b => funext fun d => d.elim0⟩

variable [Cert.Pre_finite_inputs.Facts]

/-- THE PRECONDITION DECODED: the length words' ranges, row by row. -/
theorem lens_of_pre {F : FTy → Type} [FloatOps F] (a0 a1 : FVec F S8192x32x512 .f32) (a2 : FVec F S1024x1024 .f32)
    (a3 : FVec F S1024 .f32) (a4 : FVec F S256x4 .f32) (a5 : FVec F S4 .f32) (bl sl : IVec S8192 32)
    (h : Cert.Pre_finite_inputs.fn (F := F) a0 a1 a2 a3 a4 a5 bl sl = fun _ => 1#1) :
    (∀ i : S8192.Idx, (1 : Int) ≤ (bl i).toInt ∧ (bl i).toInt ≤ 32)
      ∧ (∀ i : S8192.Idx, (2 : Int) ≤ (sl i).toInt ∧ (sl i).toInt ≤ 32) := by
  have e := congrFun h ix0
  dsimp only [Cert.Pre_finite_inputs.fn, fn_part1, fn_part2] at e
  obtain ⟨e1, hs⟩ := IntOp.andi_eq_one.mp e
  obtain ⟨-, hb⟩ := IntOp.andi_eq_one.mp e1
  refine ⟨fun i => ?_, fun i => ?_⟩
  · have hi := Host.reduce_andi_all _ _ _ _ ix0 hb i
    obtain ⟨g1, g2⟩ := IntOp.andi_eq_one.mp hi
    exact ⟨IntOp.cmpi_sge.mp g1, IntOp.cmpi_sle.mp g2⟩
  · have hi := Host.reduce_andi_all _ _ _ _ ix0 hs i
    obtain ⟨g1, g2⟩ := IntOp.andi_eq_one.mp hi
    exact ⟨IntOp.cmpi_sge.mp g1, IntOp.cmpi_sle.mp g2⟩

/-- So the three words the programs index with are positions of the sequences. -/
theorem inRange_of_pre {F : FTy → Type} [FloatOps F] (a0 a1 : FVec F S8192x32x512 .f32) (a2 : FVec F S1024x1024 .f32)
    (a3 : FVec F S1024 .f32) (a4 : FVec F S256x4 .f32) (a5 : FVec F S4 .f32) (bl sl : IVec S8192 32)
    (h : Cert.Pre_finite_inputs.fn (F := F) a0 a1 a2 a3 a4 a5 bl sl = fun _ => 1#1) :
    (∀ r : Fin 8192, (bl (ix1 r) - 1#32).toNat < 32) ∧ (∀ r : Fin 8192, (sl (ix1 r) - 1#32).toNat < 32)
      ∧ (∀ r : Fin 8192, (sl (ix1 r) - 2#32).toNat < 32) := by
  obtain ⟨hb, hs⟩ := lens_of_pre a0 a1 a2 a3 a4 a5 bl sl h
  refine ⟨fun r => ?_, fun r => ?_, fun r => ?_⟩
  · exact sub_lt _ 1 (by omega) (by omega) (hb _).1 (hb _).2
  · exact sub_lt _ 1 (by omega) (by omega) (by have := (hs (ix1 r)).1; omega) (hs _).2
  · exact sub_lt _ 2 (by omega) (by omega) (hs _).1 (hs _).2

end Cert.Range

end
-- ==== Proof.LibRepeat.lean ====
/-
  Layout reads at any extents, for vectors that are laid along one axis of a larger array and repeated along
  another: a vector down a column and repeated along the rows (`[a] → [a, 1] → [a, b]`), a row repeated down the
  columns (`[b] → [1, b] → [a, b]`), a matrix given a trailing unit axis and repeated along it
  (`[a, b] → [a, b, 1] → [a, b, c]`), the column iota of a matrix, and at the ideal instance the sum of a rank-3
  array over its middle axis; and three runs of 256 columns joined along the columns, read at a column.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRepeat

open Idealize.ShloMosaic Idealize.ShloMosaic.ValueIdx

variable {α : Type}

/-- A vector laid down a column and repeated along the rows reads, at `(p, c)`, the vector at `p`. -/
theorem col_repeat {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v h1 _ (ix1 p) (by
      rw [Shape.rowMajor_val_one, Shape.rowMajor_val_two]
      show p.val = p.val * 1 + 0
      omega)

/-- A row repeated down the columns reads, at `(p, c)`, the row at `c`. -/
theorem row_repeat {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix given a trailing unit axis and repeated along it reads, at `(p, l, f)`, the matrix at `(p, l)`. -/
theorem lane_repeat {a b c : ℕ} (v : (⟨2, ![a, b]⟩ : Shape).Idx → α) (h1 : (⟨2, ![a, b]⟩ : Shape).ShapeCasts ⟨3, ![a, b, 1]⟩)
    (h2 : (⟨3, ![a, b, 1]⟩ : Shape).Broadcasts ⟨3, ![a, b, c]⟩) (p : Fin a) (l : Fin b) (f : Fin c) :
    broadcastTo ⟨3, ![a, b, c]⟩ (shapeCast ⟨3, ![a, b, 1]⟩ v h1) h2 (ix3 p l f) = v (ix2 p l) := by
  refine (broadcastTo_apply _ h2 (ix3 p l f) (ix3 p l (0 : Fin 1)) fun ax => ?_).trans ?_
  · match ax with
    | ⟨0, _⟩ =>
      show p.val = if a = 1 then 0 else p.val
      split
      · have := p.isLt; omega
      · rfl
    | ⟨1, _⟩ =>
      show l.val = if b = 1 then 0 else l.val
      split
      · have := l.isLt; omega
      · rfl
    | ⟨2, _⟩ => rfl
  · exact shapeCast_apply v h1 _ (ix2 p l) (by
      rw [Shape.rowMajor_val_two, Shape.rowMajor_val_three]
      show p.val * b + l.val = (p.val * b + l.val) * 1 + 0
      omega)

/-- The column iota of a matrix reads, at `(p, l)`, the word of `l`. -/
theorem iota_col {κ : Kind} {a b w : ℕ} (h : (⟨2, ![a, b]⟩ : Shape).Iotas κ w [1]) (p : Fin a) (l : Fin b) :
    iota κ ⟨2, ![a, b]⟩ w [1] h (ix2 p l) = BitVec.ofNat w l.val := by
  show BitVec.ofNat w (0 * b + l.val) = _
  rw [Nat.zero_mul, Nat.zero_add]

/-- At the ideal instance the sum of a rank-3 array over its middle axis reads, at `(p, f)`, the sum over `l` of the
    array at `(p, l, f)`. -/
theorem sum_mid {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] ⟨2, ![a, c]⟩ src acc h hφ hacc (ix2 p f) = ∑ l : Fin b, src (ix3 p l f) := by
  rw [Ideal.multiReduction_add_single]
  refine Finset.sum_congr rfl fun l _ => congrArg src (funext fun d => Fin.ext ?_)
  match d with
  | ⟨0, _⟩ => rfl
  | ⟨1, _⟩ => rfl
  | ⟨2, _⟩ => rfl

/-- Three runs of 256 columns joined along the columns, read at `(p, k)`: the run that holds column `k`, at `k`'s
    place in it. -/
theorem cat3_cols {a : ℕ} (A B C : (⟨2, ![a, 256]⟩ : Shape).Idx → α)
    (h : Shape.Concatenates [(⟨2, ![a, 256]⟩ : Shape), ⟨2, ![a, 256]⟩, ⟨2, ![a, 256]⟩] ⟨2, ![a, 768]⟩ 1)
    (p : Fin a) (k : Fin 768) :
    concatenate ⟨2, ![a, 768]⟩ 1 [⟨⟨2, ![a, 256]⟩, A⟩, ⟨⟨2, ![a, 256]⟩, B⟩, ⟨⟨2, ![a, 256]⟩, C⟩] h (ix2 p k)
      = if h₁ : k.val < 256 then A (ix2 p ⟨k.val, h₁⟩)
        else if h₂ : k.val < 512 then B (ix2 p ⟨k.val - 256, by omega⟩)
        else C (ix2 p ⟨k.val - 512, by have := k.isLt; omega⟩) := by
  have hk := k.isLt
  by_cases h₁ : k.val < 256
  · rw [dif_pos h₁]
    exact concatenate_apply_piece (t := ⟨2, ![a, 768]⟩)
      (xs := [⟨⟨2, ![a, 256]⟩, A⟩, ⟨⟨2, ![a, 256]⟩, B⟩, ⟨⟨2, ![a, 256]⟩, C⟩]) (1 : Fin 2) h (ix2 p k) 0
      (by show (0 : ℕ) < 3; omega) ⟨2, ![a, 256]⟩ A rfl rfl 0 rfl (ix2 p (⟨k.val, h₁⟩ : Fin 256))
      (fun b hb => by match b with | ⟨0, _⟩ => rfl | ⟨1, _⟩ => exact absurd rfl hb) (by show 0 + k.val = k.val; omega)
  · rw [dif_neg h₁]
    by_cases h₂ : k.val < 512
    · rw [dif_pos h₂]
      exact concatenate_apply_piece (t := ⟨2, ![a, 768]⟩)
        (xs := [⟨⟨2, ![a, 256]⟩, A⟩, ⟨⟨2, ![a, 256]⟩, B⟩, ⟨⟨2, ![a, 256]⟩, C⟩]) (1 : Fin 2) h (ix2 p k) 1
        (by show (1 : ℕ) < 3; omega) ⟨2, ![a, 256]⟩ B rfl rfl 256 rfl (ix2 p (⟨k.val - 256, by omega⟩ : Fin 256))
        (fun b hb => by match b with | ⟨0, _⟩ => rfl | ⟨1, _⟩ => exact absurd rfl hb)
        (by show 256 + (k.val - 256) = k.val; omega)
    · rw [dif_neg h₂]
      exact concatenate_apply_piece (t := ⟨2, ![a, 768]⟩)
        (xs := [⟨⟨2, ![a, 256]⟩, A⟩, ⟨⟨2, ![a, 256]⟩, B⟩, ⟨⟨2, ![a, 256]⟩, C⟩]) (1 : Fin 2) h (ix2 p k) 2
        (by show (2 : ℕ) < 3; omega) ⟨2, ![a, 256]⟩ C rfl rfl 512 rfl (ix2 p (⟨k.val - 512, by omega⟩ : Fin 256))
        (fun b hb => by match b with | ⟨0, _⟩ => rfl | ⟨1, _⟩ => exact absurd rfl hb)
        (by show 512 + (k.val - 512) = k.val; omega)

end Cert.LibRepeat

end
-- ==== Proof.KernelRow.lean ====
/-
  The idealized kernel's arithmetic on one block of 256 batch rows, read entry by entry. The body's stores are two
  pure terms of the blocks it loads; here each is shown to hold, at row `p` of the block, the row function of
  Spec.lean applied to that row's input vector:
  * the input vector: for each of the three length words the body multiplies the 32 entries of the row's sequence
    by the indicator of the word among the positions 0..31 and sums over the positions; when the word is position
    `k` the sum is entry `k` (Spec's `indicator_sum`);
  * the gates: the block product with `W` into a zero accumulator plus the bias row is `x · W + b` (the change of
    float format around the product is the identity on extended reals);
  * cell, hidden, state and logits: pointwise operations of column runs of the gates, a join of two runs, and a
    second block product.
-/
import proofs.«411941_j58884001628710_1_alg».proof.Proof.Gen.KernelIdeal.Skeleton
import proofs.«411941_j58884001628710_1_alg».proof.Proof.Spec
import proofs.«411941_j58884001628710_1_alg».proof.Proof.LibRepeat
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen
open Idealize.ShloMosaic Idealize.ShloMosaic.ValueIdx Cert.Spec Cert.LibRepeat

/-! ## Taking an entry out of each row's sequence -/

/-- The indicator of the words `L - d` among the positions: over (row, position, feature). -/
def ind (L : IVec S256 32) (d : BitVec 32) : FVec Ideal S256x32x256 .f32 :=
  broadcastTo S256x32x256 (shapeCast S256x32x1 (sitofp .f32 (extui 32 (cmpi .eq (iota .tc S256x32 32 [1] iota_S256x32_d1_w32)
    (broadcastTo S256x32 (shapeCast S256x1 (subi L (broadcast S256 d)) shapeCasts_S256_S256x1) broadcasts_S256x1_S256x32)) natLt_1_32))
    shapeCasts_S256x32_S256x32x1) broadcasts_S256x32x1_S256x32x256

theorem ind_apply (L : IVec S256 32) (d : BitVec 32) (p : Fin 256) (l : Fin 32) (f : Fin 256) :
    ind L d (ix3 p l f) = ((((IntOp.cmpi .eq (BitVec.ofNat 32 l.val) (L (ix1 p) - d)).setWidth 32).toInt : ℝ) : EReal) := by
  unfold ind
  rw [lane_repeat, sitofp_apply, extui_apply]
  show ((((IntOp.cmpi .eq (iota .tc S256x32 32 [1] iota_S256x32_d1_w32 (ix2 p l))
    (broadcastTo S256x32 (shapeCast S256x1 (subi L (broadcast S256 d)) shapeCasts_S256_S256x1) broadcasts_S256x1_S256x32 (ix2 p l))).setWidth 32).toInt : ℝ) : EReal) = _
  rw [iota_col, col_repeat]
  rfl

/-- The entries of the sequence block `V` summed against the indicator of `L - d`. -/
def taken (L : IVec S256 32) (d : BitVec 32) (V : FVec Ideal S256x32x256 .f32) : FVec Ideal S256x256 .f32 :=
  multiReduction .add [1] S256x256 (mulf (ind L d) V) 0x00000000#32 reduces_S256x32x256_S256x256 (.inl rfl) rfl

/-- When row `p`'s word is position `k`, the sum is entry `k` of the row. -/
theorem taken_apply (L : IVec S256 32) (d : BitVec 32) (V : FVec Ideal S256x32x256 .f32) (p : Fin 256) (f : Fin 256)
    (k : Fin 32) (hw : L (ix1 p) - d = BitVec.ofNat 32 k.val) : taken L d V (ix2 p f) = V (ix3 p k f) := by
  unfold taken
  refine (sum_mid (a := 256) (b := 32) (c := 256) (mulf (ind L d) V) _ _ _ _ p f).trans ?_
  have e : ∀ l : Fin 32, (mulf (ind L d) V) (ix3 p l f)
      = ((((IntOp.cmpi .eq (BitVec.ofNat 32 l.val) (L (ix1 p) - d)).setWidth 32).toInt : ℝ) : EReal) * V (ix3 p l f) := fun l => by
    rw [mulf_apply, ind_apply]
  rw [Finset.sum_congr rfl fun l _ => e l]
  exact indicator_sum (fun l => V (ix3 p l f)) _ k hw

/-- The body's input vector as the join of the three sums and a zero run. -/
theorem pay5_eq (L1 L2 L3 : Vec Ideal S256 .i32) (B S : Vec Ideal S256x32x256 .f32) :
    k0_pay5 L1 L2 L3 B S = concatenate S256x1024 1 [⟨S256x768, concatenate S256x768 1
      [⟨S256x256, taken L1 1#32 B⟩, ⟨S256x256, taken L2 1#32 S⟩, ⟨S256x256, taken L3 2#32 S⟩]
      concatenates_S256x256_S256x256_S256x256_S256x768_d1⟩, ⟨S256x256, broadcast S256x256 (Scalar.ofBits .f32 0x00000000#32)⟩]
      concatenates_S256x768_S256x256_S256x1024_d1 := rfl

/-- Three runs of 256 columns of the block joined along the columns, read at `(p, k)`. -/
theorem cat3_apply (A B C : FVec Ideal S256x256 .f32) (h : Shape.Concatenates [S256x256, S256x256, S256x256] S256x768 1)
    (p : Fin 256) (k : Fin 768) :
    concatenate S256x768 1 [⟨S256x256, A⟩, ⟨S256x256, B⟩, ⟨S256x256, C⟩] h (ix2 p k)
      = if h₁ : k.val < 256 then A (ix2 p ⟨k.val, h₁⟩)
        else if h₂ : k.val < 512 then B (ix2 p ⟨k.val - 256, by omega⟩)
        else C (ix2 p ⟨k.val - 512, by have := k.isLt; omega⟩) :=
  cat3_cols (a := 256) A B C h p k

/-- THE INPUT VECTOR of row `p` of the block: when the three words are positions `kb`, `k1`, `k2`, the body's joined
    sums are the row's three entries end to end and a zero run. -/
theorem pay5_apply (L1 L2 : Vec Ideal S256 .i32) (B S : Vec Ideal S256x32x256 .f32) (p : Fin 256) (kb k1 k2 : Fin 32)
    (hb : L1 (ix1 p) - 1#32 = BitVec.ofNat 32 kb.val) (h1 : L2 (ix1 p) - 1#32 = BitVec.ofNat 32 k1.val)
    (h2 : L2 (ix1 p) - 2#32 = BitVec.ofNat 32 k2.val) (k : Fin 1024) :
    k0_pay5 L1 L2 L2 B S (ix2 p k)
      = xcat (fun f => B (ix3 p kb f)) (fun f => S (ix3 p k1 f)) (fun f => S (ix3 p k2 f)) k := by
  rw [pay5_eq]
  unfold xcat
  have hk := k.isLt
  by_cases c₃ : k.val < 768
  · rw [concatenate_pair_apply_left (s₁ := S256x768) (s₂ := S256x256) (1 : Fin 2) _ _ _ (ix2 p k) rfl (ix2 p (⟨k.val, c₃⟩ : Fin 768))
      (fun b => by match b with | ⟨0, _⟩ => rfl | ⟨1, _⟩ => rfl)]
    rw [cat3_apply]
    by_cases c₁ : k.val < 256
    · rw [dif_pos c₁, dif_pos c₁]
      exact taken_apply L1 1#32 B p ⟨k.val, c₁⟩ kb hb
    · rw [dif_neg c₁, dif_neg c₁]
      by_cases c₂ : k.val < 512
      · rw [dif_pos c₂, dif_pos c₂]
        exact taken_apply L2 1#32 S p _ k1 h1
      · rw [dif_neg c₂, dif_neg c₂, dif_pos c₃]
        exact taken_apply L2 2#32 S p _ k2 h2
  · rw [dif_neg (by omega), dif_neg (by omega), dif_neg c₃]
    rw [concatenate_pair_apply_right (s₁ := S256x768) (s₂ := S256x256) (1 : Fin 2) _ _ _ (ix2 p k) rfl rfl (ix2 p (⟨k.val - 768, by omega⟩ : Fin 256))
      (fun b hb => by match b with | ⟨0, _⟩ => rfl | ⟨1, _⟩ => exact absurd rfl hb)
      (by show (k.val - 768) + 768 = k.val; omega)]
    exact Ideal.ofBits_zero_f32

/-! ## The gates -/

theorem lhs_g_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem lhs_g_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_g_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_g_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- THE GATES of row `p`: the block product into the zero accumulator plus the bias row is `x · W + b`. -/
theorem pay1_apply (X : FVec Ideal S256x1024 .f32) (W : Vec Ideal S1024x1024 .f32) (b : Vec Ideal S1024 .f32)
    (p : Fin 256) (n : Fin 1024) : k0_pay1 X W b (ix2 p n) = gates (fun k => X (ix2 p k)) W b n := by
  unfold k0_pay1 gates
  rw [addf_apply, row_repeat]
  congr 1
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p n) ((ValueIdx.contrEquiv1 dot_S256x1024_S1024x1024_S256x1024_1_0_0_1_n_n 1024 rfl rfl).symm k) = ix2 p k :=
    funext fun a => Fin.ext (by
      match a with
      | ⟨0, _⟩ => exact lhs_g_0 _ _
      | ⟨1, _⟩ => exact (lhs_g_1 _ _).trans hk)
  have er : dot_S256x1024_S1024x1024_S256x1024_1_0_0_1_n_n.rhsIdx (ix2 p n) ((ValueIdx.contrEquiv1 dot_S256x1024_S1024x1024_S256x1024_1_0_0_1_n_n 1024 rfl rfl).symm k) = ix2 k n :=
    funext fun a => Fin.ext (by
      match a with
      | ⟨0, _⟩ => exact (rhs_g_0 _ _).trans hk
      | ⟨1, _⟩ => exact rhs_g_1 _ _)
  rw [el, er]
  rfl

/-! ## Cell, hidden state, state -/

/-- THE CELL of row `p`. -/
theorem pay2_apply (X : FVec Ideal S256x1024 .f32) (W : Vec Ideal S1024x1024 .f32) (b : Vec Ideal S1024 .f32)
    (p : Fin 256) (u : Fin 256) : k0_pay2 X W b (ix2 p u) = cell (fun k => X (ix2 p k)) W b u := by
  have hu := u.isLt
  unfold k0_pay2 cell
  rw [mulf_apply]
  show Ideal.logistic (extractStridedSlice S256x256 ![0, 0] (k0_pay1 X W b) slices_S256x1024_o0_0_S256x256 (ix2 p u))
      * Ideal.tanh (extractStridedSlice S256x256 ![0, 256] (k0_pay1 X W b) slices_S256x1024_o0_256_S256x256 (ix2 p u)) = _
  rw [slice2_axis1_apply 0 _ _ p u (⟨u.val, by omega⟩ : Fin 1024) (by show u.val = 0 + u.val; omega),
    slice2_axis1_apply 256 _ _ p u (⟨256 + u.val, by omega⟩ : Fin 1024) rfl, pay1_apply, pay1_apply]

/-- THE STATE of row `p`: cell then hidden. -/
theorem pay3_apply (X : FVec Ideal S256x1024 .f32) (W : Vec Ideal S1024x1024 .f32) (b : Vec Ideal S1024 .f32)
    (p : Fin 256) (j : Fin 512) : k0_pay3 X W b (ix2 p j) = state (fun k => X (ix2 p k)) W b j := by
  have hj := j.isLt
  unfold k0_pay3 state
  by_cases c : j.val < 256
  · rw [dif_pos c, concatenate_pair_apply_left (s₁ := S256x256) (s₂ := S256x256) (1 : Fin 2) _ _ _ (ix2 p j) rfl (ix2 p (⟨j.val, c⟩ : Fin 256))
      (fun b => by match b with | ⟨0, _⟩ => rfl | ⟨1, _⟩ => rfl)]
    exact pay2_apply X W b p ⟨j.val, c⟩
  · rw [dif_neg c, concatenate_pair_apply_right (s₁ := S256x256) (s₂ := S256x256) (1 : Fin 2) _ _ _ (ix2 p j) rfl rfl (ix2 p (⟨j.val - 256, by omega⟩ : Fin 256))
      (fun b hb => by match b with | ⟨0, _⟩ => rfl | ⟨1, _⟩ => exact absurd rfl hb)
      (by show (j.val - 256) + 256 = j.val; omega)]
    unfold Cert.Spec.hidden
    rw [mulf_apply]
    show Ideal.tanh (k0_pay2 X W b (ix2 p ⟨j.val - 256, _⟩))
      * Ideal.logistic (extractStridedSlice S256x256 ![0, 768] (k0_pay1 X W b) slices_S256x1024_o0_768_S256x256 (ix2 p ⟨j.val - 256, _⟩)) = _
    rw [pay2_apply, slice2_axis1_apply 768 _ _ p _ (⟨768 + (j.val - 256), by omega⟩ : Fin 1024) rfl, pay1_apply]

/-! ## The logits -/

theorem lhs_t_0 (i : S256x4.Idx) (q : dot_S256x256_S256x4_S256x4_1_0_0_1_n_n.contr.Idx) :
    (dot_S256x256_S256x4_S256x4_1_0_0_1_n_n.lhsIdx i q 0).val = (i 0).val := by
  unfold DotDims.lhsIdx
  rw [dif_neg (show ¬(0 : Fin S256x256.rank) ∈ dot_S256x256_S256x4_S256x4_1_0_0_1_n_n.lhsBatch by decide),
    dif_pos (show (0 : Fin S256x256.rank) ∈ dot_S256x256_S256x4_S256x4_1_0_0_1_n_n.lhsNonContracting by decide)]
  rfl
theorem lhs_t_1 (i : S256x4.Idx) (q : dot_S256x256_S256x4_S256x4_1_0_0_1_n_n.contr.Idx) :
    (dot_S256x256_S256x4_S256x4_1_0_0_1_n_n.lhsIdx i q 1).val = (q ⟨0, by decide⟩).val :=
  dot_S256x256_S256x4_S256x4_1_0_0_1_n_n.lhsIdx_val_of_single rfl i q
theorem rhs_t_0 (i : S256x4.Idx) (q : dot_S256x256_S256x4_S256x4_1_0_0_1_n_n.contr.Idx) :
    (dot_S256x256_S256x4_S256x4_1_0_0_1_n_n.rhsIdx i q 0).val = (q ⟨0, by decide⟩).val :=
  dot_S256x256_S256x4_S256x4_1_0_0_1_n_n.rhsIdx_val_of_single rfl i q
theorem rhs_t_1 (i : S256x4.Idx) (q : dot_S256x256_S256x4_S256x4_1_0_0_1_n_n.contr.Idx) :
    (dot_S256x256_S256x4_S256x4_1_0_0_1_n_n.rhsIdx i q 1).val = (i 1).val := by
  unfold DotDims.rhsIdx
  rw [dif_neg (show ¬(1 : Fin S256x4.rank) ∈ dot_S256x256_S256x4_S256x4_1_0_0_1_n_n.rhsBatch by decide),
    dif_pos (show (1 : Fin S256x4.rank) ∈ dot_S256x256_S256x4_S256x4_1_0_0_1_n_n.rhsNonContracting by decide)]
  rfl

/-- THE LOGITS of row `p`: the cell's block product with `Wt` plus the bias row. -/
theorem pay4_apply (X : FVec Ideal S256x1024 .f32) (W : Vec Ideal S1024x1024 .f32) (b : Vec Ideal S1024 .f32)
    (Wt : Vec Ideal S256x4 .f32) (bt : Vec Ideal S4 .f32) (p : Fin 256) (q : Fin 4) :
    k0_pay4 X W b Wt bt (ix2 p q) = logits (fun k => X (ix2 p k)) W b Wt bt q := by
  unfold k0_pay4 logits
  rw [addf_apply, row_repeat]
  congr 1
  simp only [matmul]
  rw [Ideal.matmul_constant_zero_apply, ← Equiv.sum_comp (ValueIdx.contrEquiv1 dot_S256x256_S256x4_S256x4_1_0_0_1_n_n 256 rfl rfl).symm]
  refine Finset.sum_congr rfl fun u _ => ?_
  have hk := ValueIdx.contrEquiv1_symm_val dot_S256x256_S256x4_S256x4_1_0_0_1_n_n 256 rfl rfl u
  have el : dot_S256x256_S256x4_S256x4_1_0_0_1_n_n.lhsIdx (ix2 p q) ((ValueIdx.contrEquiv1 dot_S256x256_S256x4_S256x4_1_0_0_1_n_n 256 rfl rfl).symm u) = ix2 p u :=
    funext fun a => Fin.ext (by
      match a with
      | ⟨0, _⟩ => exact lhs_t_0 _ _
      | ⟨1, _⟩ => exact (lhs_t_1 _ _).trans hk)
  have er : dot_S256x256_S256x4_S256x4_1_0_0_1_n_n.rhsIdx (ix2 p q) ((ValueIdx.contrEquiv1 dot_S256x256_S256x4_S256x4_1_0_0_1_n_n 256 rfl rfl).symm u) = ix2 u q :=
    funext fun a => Fin.ext (by
      match a with
      | ⟨0, _⟩ => exact (rhs_t_0 _ _).trans hk
      | ⟨1, _⟩ => exact rhs_t_1 _ _)
  rw [el, er, pay2_apply]

end Cert.KernelIdeal.Row

end
-- ==== Proof.KernelWhole.lean ====
/-
  From the idealized kernel's blocks to its two result arrays. Grid point `t` (of 32) stages rows `256 t … 256 t + 255`
  of the two sequence arrays (their first 256 features only) and of the two length arrays, and the four parameter
  arrays whole; it writes rows `256 t … 256 t + 255` of the state array and of the logits array. Row `p` of point
  `t`'s block is batch row `256 t + p`, so with the length words in range the block the point writes back is that
  block of Spec.lean's `stateArr` (resp. `logitsArr`) of the argument arrays; the 32 blocks cover both arrays, so
  after the run the arrays ARE those functions of the arguments.
-/
import proofs.«411941_j58884001628710_1_alg».proof.Proof.Gen.KernelIdeal.Value
import proofs.«411941_j58884001628710_1_alg».proof.Proof.KernelRow
import proofs.«411941_j58884001628710_1_alg».proof.Proof.Spec
import Idealize.ShloMosaic.Lib.Pipeline.Value
import Idealize.ShloMosaic.Lib.ValueIdx

noncomputable section

namespace Cert.KernelIdeal.Whole

open Cert.KernelIdeal Cert.KernelIdeal.Gen Cert.KernelIdeal.Row
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays and the blocks, at their literal types -/

abbrev bufsA (c : Dev nD) : Seq := V m c main_arg0
abbrev stkA (c : Dev nD) : Seq := V m c main_arg1
abbrev WA (c : Dev nD) : (⟨2, ![1024, 1024]⟩ : Shape).Idx → EReal := V m c main_arg2
abbrev bA (c : Dev nD) : (⟨1, ![1024]⟩ : Shape).Idx → EReal := V m c main_arg3
abbrev WtA (c : Dev nD) : (⟨2, ![256, 4]⟩ : Shape).Idx → EReal := V m c main_arg4
abbrev btA (c : Dev nD) : (⟨1, ![4]⟩ : Shape).Idx → EReal := V m c main_arg5
abbrev blA (c : Dev nD) : Lens := V m c main_arg6
abbrev slA (c : Dev nD) : Lens := V m c main_arg7

abbrev bufsB (c : Dev nD) (t : Fin cfg0.N) : Vec Ideal S256x32x256 .f32 := iblk m c 0 t
abbrev stkB (c : Dev nD) (t : Fin cfg0.N) : Vec Ideal S256x32x256 .f32 := iblk m c 1 t
abbrev blB (c : Dev nD) (t : Fin cfg0.N) : Vec Ideal S256 .i32 := iblk m c 2 t
abbrev slB (c : Dev nD) (t : Fin cfg0.N) : Vec Ideal S256 .i32 := iblk m c 3 t
abbrev WB (c : Dev nD) (t : Fin cfg0.N) : Vec Ideal S1024x1024 .f32 := iblk m c 4 t
abbrev bB (c : Dev nD) (t : Fin cfg0.N) : Vec Ideal S1024 .f32 := iblk m c 5 t
abbrev WtB (c : Dev nD) (t : Fin cfg0.N) : Vec Ideal S256x4 .f32 := iblk m c 6 t
abbrev btB (c : Dev nD) (t : Fin cfg0.N) : Vec Ideal S4 .f32 := iblk m c 7 t

/-- The printed index maps, decided over the 32 points: the batch windows sit at block `t`, the parameter windows
    at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = t.val ∧ win0_3.index t (0 : Fin 1) = t.val
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 32 := by
  have h : t.val < grid0.N := t.isLt
  rwa [N_0] at h

/-- The batch row of row `p` of point `t`'s blocks. -/
abbrev rowOf (t : Fin cfg0.N) (p : Fin 256) : Fin 8192 := ⟨256 * t.val + p.val, by have := t_lt t; have := p.isLt; omega⟩

theorem bufsB_apply (c : Dev nD) (t : Fin cfg0.N) (p : Fin 256) (l : Fin 32) (f : Fin 256) :
    bufsB m c t (ix3 p l f) = feat (bufsA m c) (rowOf t p) l f := by
  obtain ⟨e0, e1, e2, -⟩ := idx_facts t
  show iblk m c 0 t (ix3 p l f) = _
  unfold iblk feat
  rw [View.read_apply]
  show V m c main_arg0 _ = V m c main_arg0 _
  congr 1
  funext a
  apply Fin.ext
  match a with
  | ⟨0, _⟩ => show win0_0.index t (0 : Fin 3) * 256 + 1 * p.val = 256 * t.val + p.val; rw [e0]; omega
  | ⟨1, _⟩ => show win0_0.index t (1 : Fin 3) * 32 + 1 * l.val = l.val; rw [e1]; omega
  | ⟨2, _⟩ => show win0_0.index t (2 : Fin 3) * 256 + 1 * f.val = f.val; rw [e2]; omega

theorem stkB_apply (c : Dev nD) (t : Fin cfg0.N) (p : Fin 256) (l : Fin 32) (f : Fin 256) :
    stkB m c t (ix3 p l f) = feat (stkA m c) (rowOf t p) l f := by
  obtain ⟨-, -, -, e0, e1, e2, -⟩ := idx_facts t
  show iblk m c 1 t (ix3 p l f) = _
  unfold iblk feat
  rw [View.read_apply]
  show V m c main_arg1 _ = V m c main_arg1 _
  congr 1
  funext a
  apply Fin.ext
  match a with
  | ⟨0, _⟩ => show win0_1.index t (0 : Fin 3) * 256 + 1 * p.val = 256 * t.val + p.val; rw [e0]; omega
  | ⟨1, _⟩ => show win0_1.index t (1 : Fin 3) * 32 + 1 * l.val = l.val; rw [e1]; omega
  | ⟨2, _⟩ => show win0_1.index t (2 : Fin 3) * 256 + 1 * f.val = f.val; rw [e2]; omega

theorem blB_apply (c : Dev nD) (t : Fin cfg0.N) (p : Fin 256) :
    blB m c t (ix1 p) = blA m c (ix1 (rowOf t p)) := by
  obtain ⟨-, -, -, -, -, -, e0, -⟩ := idx_facts t
  show iblk m c 2 t (ix1 p) = _
  unfold iblk
  rw [View.read_apply]
  show V m c main_arg6 _ = V m c main_arg6 _
  congr 1
  funext a
  apply Fin.ext
  match a with
  | ⟨0, _⟩ => show win0_2.index t (0 : Fin 1) * 256 + 1 * p.val = 256 * t.val + p.val; rw [e0]; omega

theorem slB_apply (c : Dev nD) (t : Fin cfg0.N) (p : Fin 256) :
    slB m c t (ix1 p) = slA m c (ix1 (rowOf t p)) := by
  obtain ⟨-, -, -, -, -, -, -, e0, -⟩ := idx_facts t
  show iblk m c 3 t (ix1 p) = _
  unfold iblk
  rw [View.read_apply]
  show V m c main_arg7 _ = V m c main_arg7 _
  congr 1
  funext a
  apply Fin.ext
  match a with
  | ⟨0, _⟩ => show win0_3.index t (0 : Fin 1) * 256 + 1 * p.val = 256 * t.val + p.val; rw [e0]; omega

theorem WB_eq (c : Dev nD) (t : Fin cfg0.N) : WB m c t = WA m c := by
  obtain ⟨-, -, -, -, -, -, -, -, e0, e1, -⟩ := idx_facts t
  funext i
  show iblk m c 4 t i = _
  unfold iblk
  rw [View.read_apply]
  show V m c main_arg2 _ = V m c main_arg2 _
  congr 1
  funext a
  apply Fin.ext
  match a with
  | ⟨0, _⟩ => show win0_4.index t (0 : Fin 2) * 1024 + 1 * (i 0).val = (i 0).val; rw [e0]; omega
  | ⟨1, _⟩ => show win0_4.index t (1 : Fin 2) * 1024 + 1 * (i 1).val = (i 1).val; rw [e1]; omega

theorem bB_eq (c : Dev nD) (t : Fin cfg0.N) : bB m c t = bA m c := by
  obtain ⟨-, -, -, -, -, -, -, -, -, -, e0, -⟩ := idx_facts t
  funext i
  show iblk m c 5 t i = _
  unfold iblk
  rw [View.read_apply]
  show V m c main_arg3 _ = V m c main_arg3 _
  congr 1
  funext a
  apply Fin.ext
  match a with
  | ⟨0, _⟩ => show win0_5.index t (0 : Fin 1) * 1024 + 1 * (i 0).val = (i 0).val; rw [e0]; omega

theorem WtB_eq (c : Dev nD) (t : Fin cfg0.N) : WtB m c t = WtA m c := by
  obtain ⟨-, -, -, -, -, -, -, -, -, -, -, e0, e1, -⟩ := idx_facts t
  funext i
  show iblk m c 6 t i = _
  unfold iblk
  rw [View.read_apply]
  show V m c main_arg4 _ = V m c main_arg4 _
  congr 1
  funext a
  apply Fin.ext
  match a with
  | ⟨0, _⟩ => show win0_6.index t (0 : Fin 2) * 256 + 1 * (i 0).val = (i 0).val; rw [e0]; omega
  | ⟨1, _⟩ => show win0_6.index t (1 : Fin 2) * 4 + 1 * (i 1).val = (i 1).val; rw [e1]; omega

theorem btB_eq (c : Dev nD) (t : Fin cfg0.N) : btB m c t = btA m c := by
  obtain ⟨-, -, -, -, -, -, -, -, -, -, -, -, -, e0, -⟩ := idx_facts t
  funext i
  show iblk m c 7 t i = _
  unfold iblk
  rw [View.read_apply]
  show V m c main_arg5 _ = V m c main_arg5 _
  congr 1
  funext a
  apply Fin.ext
  match a with
  | ⟨0, _⟩ => show win0_7.index t (0 : Fin 1) * 4 + 1 * (i 0).val = (i 0).val; rw [e0]; omega

/-- THE INPUT VECTOR of row `p` of point `t`'s block is batch row `256 t + p`'s, when the length words are in range. -/
theorem xblock_eq (c : Dev nD) (hb : InRange (blA m c) 1#32) (h1 : InRange (slA m c) 1#32) (h2 : InRange (slA m c) 2#32)
    (t : Fin cfg0.N) (p : Fin 256) :
    (fun k : Fin 1024 => k0_pay5 (blB m c t) (slB m c t) (slB m c t) (bufsB m c t) (stkB m c t) (ix2 p k))
      = xrow (bufsA m c) (stkA m c) (blA m c) (slA m c) (rowOf t p) := by
  funext k
  rw [pay5_apply (blB m c t) (slB m c t) (bufsB m c t) (stkB m c t) p
    (pick (blA m c) 1#32 (rowOf t p)) (pick (slA m c) 1#32 (rowOf t p)) (pick (slA m c) 2#32 (rowOf t p))
    (by rw [blB_apply]; exact pick_spec hb _) (by rw [slB_apply]; exact pick_spec h1 _)
    (by rw [slB_apply]; exact pick_spec h2 _) k]
  unfold xrow
  congr 1 <;> funext f
  · exact bufsB_apply m c t p _ f
  · exact stkB_apply m c t p _ f
  · exact stkB_apply m c t p _ f

/-! ## What each point writes back -/

/-- POINT `t` WRITES BACK block `t` of the state array of the arguments. -/
theorem flushed8_eq (c : Dev nD) (hb : InRange (blA m c) 1#32) (h1 : InRange (slA m c) 1#32) (h2 : InRange (slA m c) 2#32)
    (t : Fin cfg0.N) :
    (dats m 0 c).flushed 8 t = ((cfg0.win 8).blk t).view.read (Elt Ideal) (stateArr (bufsA m c) (stkA m c) (WA m c) (bA m c) (blA m c) (slA m c)) := by
  obtain ⟨-, -, -, -, -, -, -, -, -, -, -, -, -, -, e0, e1, -⟩ := idx_facts t
  rw [Value.flushed8]
  unfold out0_8
  rw [View.canon_unit_zero hz2]
  simp only [View.ld_unit_zero (S := S256) hz1, View.ld_unit_zero (S := S256x32x256) hz3,
    View.ld_unit_zero (S := S1024x1024) hz2, View.ld_unit_zero (S := S1024) hz1]
  funext y
  show k0_pay3 (k0_pay5 (blB m c t) (slB m c t) (slB m c t) (bufsB m c t) (stkB m c t)) (WB m c t) (bB m c t) y
    = stateArr (bufsA m c) (stkA m c) (WA m c) (bA m c) (blA m c) (slA m c) (((cfg0.win 8).blk t).view.emb y)
  obtain ⟨p, j, rfl⟩ : ∃ (p : Fin 256) (j : Fin 512), y = ix2 p j := ⟨y 0, y 1, eq_ix2 y⟩
  rw [pay3_apply, xblock_eq m c hb h1 h2 t p, WB_eq, bB_eq]
  unfold stateArr
  have r0 : (((cfg0.win 8).blk t).view.emb (ix2 p j) 0).val = 256 * t.val + p.val := by
    show win0_8.index t (0 : Fin 2) * 256 + 1 * p.val = _
    rw [e0]; omega
  have r1 : (((cfg0.win 8).blk t).view.emb (ix2 p j) 1).val = j.val := by
    show win0_8.index t (1 : Fin 2) * 512 + 1 * j.val = _
    rw [e1]; omega
  congr 1
  · congr 1
    exact Fin.ext r0.symm
  · exact Fin.ext r1.symm

/-- POINT `t` WRITES BACK block `t` of the logits array of the arguments. -/
theorem flushed9_eq (c : Dev nD) (hb : InRange (blA m c) 1#32) (h1 : InRange (slA m c) 1#32) (h2 : InRange (slA m c) 2#32)
    (t : Fin cfg0.N) :
    (dats m 0 c).flushed 9 t = ((cfg0.win 9).blk t).view.read (Elt Ideal) (logitsArr (bufsA m c) (stkA m c) (WA m c) (bA m c) (WtA m c) (btA m c) (blA m c) (slA m c)) := by
  obtain ⟨-, -, -, -, -, -, -, -, -, -, -, -, -, -, -, -, e0, e1⟩ := idx_facts t
  rw [Value.flushed9]
  unfold out0_9
  rw [View.canon_unit_zero hz2]
  simp only [View.ld_unit_zero (S := S256) hz1, View.ld_unit_zero (S := S256x32x256) hz3,
    View.ld_unit_zero (S := S1024x1024) hz2, View.ld_unit_zero (S := S1024) hz1,
    View.ld_unit_zero (S := S256x4) hz2, View.ld_unit_zero (S := S4) hz1]
  funext y
  show k0_pay4 (k0_pay5 (blB m c t) (slB m c t) (slB m c t) (bufsB m c t) (stkB m c t)) (WB m c t) (bB m c t)
      (WtB m c t) (btB m c t) y
    = logitsArr (bufsA m c) (stkA m c) (WA m c) (bA m c) (WtA m c) (btA m c) (blA m c) (slA m c) (((cfg0.win 9).blk t).view.emb y)
  obtain ⟨p, q, rfl⟩ : ∃ (p : Fin 256) (q : Fin 4), y = ix2 p q := ⟨y 0, y 1, eq_ix2 y⟩
  rw [pay4_apply, xblock_eq m c hb h1 h2 t p, WB_eq, bB_eq, WtB_eq, btB_eq]
  unfold logitsArr
  have r0 : (((cfg0.win 9).blk t).view.emb (ix2 p q) 0).val = 256 * t.val + p.val := by
    show win0_9.index t (0 : Fin 2) * 256 + 1 * p.val = _
    rw [e0]; omega
  have r1 : (((cfg0.win 9).blk t).view.emb (ix2 p q) 1).val = q.val := by
    show win0_9.index t (1 : Fin 2) * 4 + 1 * q.val = _
    rw [e1]; omega
  congr 1
  · congr 1
    exact Fin.ext r0.symm
  · exact Fin.ext r1.symm

/-! ## The blocks cover the arrays -/

theorem mem_blk8 (t : Fin cfg0.N) (i : S8192x512.Idx) :
    i ∈ ((cfg0.win 8).blk t).view.set ↔ ∀ a : Fin 2, win0_8.index t a * S256x512.size a ≤ (i a).val
      ∧ (i a).val < win0_8.index t a * S256x512.size a + S256x512.size a := by
  show i ∈ ((View.whole main_v0_0).slice (win0_8.rect t)).set ↔ _
  rw [View.set_slice_whole, Rect.mem_set_unit]
  exact Iff.rfl

theorem mem_blk9 (t : Fin cfg0.N) (i : S8192x4.Idx) :
    i ∈ ((cfg0.win 9).blk t).view.set ↔ ∀ a : Fin 2, win0_9.index t a * S256x4.size a ≤ (i a).val
      ∧ (i a).val < win0_9.index t a * S256x4.size a + S256x4.size a := by
  show i ∈ ((View.whole main_v0_1).slice (win0_9.rect t)).set ↔ _
  rw [View.set_slice_whole, Rect.mem_set_unit]
  exact Iff.rfl

/-- Row `r` of the state array is written by point `r / 256`. -/
theorem cover8 (i : S8192x512.Idx) :
    ∃ t : Fin cfg0.N, (cfg0.win 8).flush t = true ∧ i ∈ ((cfg0.win 8).blk t).view.set := by
  have h0 : (i 0).val < 8192 := (i 0).isLt
  have h1 : (i 1).val < 512 := (i 1).isLt
  have hN : grid0.N = 32 := N_0
  let t : Fin cfg0.N := ⟨(i 0).val / 256, by show (i 0).val / 256 < grid0.N; rw [hN]; omega⟩
  obtain ⟨-, -, -, -, -, -, -, -, -, -, -, -, -, -, e0, e1, -⟩ := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    rw [e0]
    show (i 0).val / 256 * 256 ≤ (i 0).val ∧ (i 0).val < (i 0).val / 256 * 256 + 256
    omega
  | ⟨1, _⟩ =>
    show win0_8.index t (1 : Fin 2) * 512 ≤ (i 1).val ∧ (i 1).val < win0_8.index t (1 : Fin 2) * 512 + 512
    rw [e1]
    omega

/-- Row `r` of the logits array is written by point `r / 256`. -/
theorem cover9 (i : S8192x4.Idx) :
    ∃ t : Fin cfg0.N, (cfg0.win 9).flush t = true ∧ i ∈ ((cfg0.win 9).blk t).view.set := by
  have h0 : (i 0).val < 8192 := (i 0).isLt
  have h1 : (i 1).val < 4 := (i 1).isLt
  have hN : grid0.N = 32 := N_0
  let t : Fin cfg0.N := ⟨(i 0).val / 256, by show (i 0).val / 256 < grid0.N; rw [hN]; omega⟩
  obtain ⟨-, -, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    rw [e0]
    show (i 0).val / 256 * 256 ≤ (i 0).val ∧ (i 0).val < (i 0).val / 256 * 256 + 256
    omega
  | ⟨1, _⟩ =>
    show win0_9.index t (1 : Fin 2) * 4 ≤ (i 1).val ∧ (i 1).val < win0_9.index t (1 : Fin 2) * 4 + 4
    rw [e1]
    omega

/-! ## The arrays after the run, and the run -/

theorem final8 (c : Dev nD) (hb : InRange (blA m c) 1#32) (h1 : InRange (slA m c) 1#32) (h2 : InRange (slA m c) 2#32) :
    (dats m 0 c).arrAt 8 cfg0.N = stateArr (bufsA m c) (stkA m c) (WA m c) (bA m c) (blA m c) (slA m c) :=
  (dats m 0 c).arrAt_eq_of_cover 8 (stateArr (bufsA m c) (stkA m c) (WA m c) (bA m c) (blA m c) (slA m c)) (fun t _ => flushed8_eq m c hb h1 h2 t) cover8

theorem final9 (c : Dev nD) (hb : InRange (blA m c) 1#32) (h1 : InRange (slA m c) 1#32) (h2 : InRange (slA m c) 2#32) :
    (dats m 0 c).arrAt 9 cfg0.N = logitsArr (bufsA m c) (stkA m c) (WA m c) (bA m c) (WtA m c) (btA m c) (blA m c) (slA m c) :=
  (dats m 0 c).arrAt_eq_of_cover 9 (logitsArr (bufsA m c) (stkA m c) (WA m c) (bA m c) (WtA m c) (btA m c) (blA m c) (slA m c)) (fun t _ => flushed9_eq m c hb h1 h2 t) cover9

/-- THE RUN, READ: with the length words in range, every weakly fair execution of the idealized kernel ends with the
    state array and the logits array at Spec.lean's functions of the arguments, the arguments unchanged. -/
theorem run (hb : ∀ c, InRange (blA m c) 1#32) (h1 : ∀ c, InRange (slA m c) 1#32) (h2 : ∀ c, InRange (slA m c) 2#32) :
    θ_run defs (onTc (τ := τ) (main (F := Ideal))) ⟨m, fun _ => 0, ρ⟩ fun r => ∀ c : Dev nD,
      r.2.mem ((c : Thread nD τ).loc main_v0_0) = stateArr (bufsA m c) (stkA m c) (WA m c) (bA m c) (blA m c) (slA m c)
      ∧ r.2.mem ((c : Thread nD τ).loc main_v0_1) = logitsArr (bufsA m c) (stkA m c) (WA m c) (bA m c) (WtA m c) (btA m c) (blA m c) (slA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c (hb c) (h1 c) (h2 c)),
      (h c).2.1.trans (final9 m c (hb c) (h1 c) (h2 c)), (h c).2.2⟩)
    (Value.run_blocks m ρ)

end Cert.KernelIdeal.Whole

end
-- ==== Proof.RefRow.lean ====
/-
  The idealized reference, one batch row at a time. Its @main takes, for each of the three length words, the entry
  the word names by a gather whose start index for row `r` is `(r, word, 0)`, each component first passed through the
  wrap-around of negative indices (`i < 0 ↦ i + extent`) and then clamped by the gather; a component that already is
  a position of its axis goes through both unchanged, so with the words in range the gather reads entry `word` of row
  `r`. The rest is one LSTM step spelt in host operations: the product with `W` plus the bias, the four column runs,
  the sigmoids written out as `1 / (1 + exp (-x))`, a forget term `0 · σ(f + 1)` that is zero on all extended reals,
  and the second product. Row by row these are Spec.lean's functions of the row's input vector.
-/
import proofs.«411941_j58884001628710_1_alg».proof.Proof.RefStages
import proofs.«411941_j58884001628710_1_alg».proof.Proof.Spec
import proofs.«411941_j58884001628710_1_alg».proof.Proof.LibRepeat
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Row

open Cert.ReferenceIdeal Cert.ReferenceIdeal.Gen Cert.ReferenceIdeal.Stages
open Idealize.ShloMosaic Idealize.ShloMosaic.ValueIdx Cert.Spec Cert.LibRepeat

/-! ## Words -/

/-- A word below `2^31` is not negative, so the wrap-around of negative indices leaves it alone. -/
theorem wrap_small (w a : BitVec 32) (hw : w.toNat < 2 ^ 31) :
    Scalar.select (IntOp.cmpi .slt w 0#32) (IntOp.addi w a) w = w := by
  have h0 : IntOp.cmpi .slt w 0#32 = 0#1 := by
    apply eq_zero_of_ne_one
    intro h
    have h' := (StableHlo.Predicate.slt_iff_toNat hw (by decide)).mp h
    exact Nat.not_lt_zero _ h'
  rw [h0, select_zero]

theorem toNat_ofNat_lt {n b : Nat} (hn : n < b) (hb : b ≤ 2 ^ 31) : (BitVec.ofNat 32 n).toNat = n := by
  rw [BitVec.toNat_ofNat]; exact Nat.mod_eq_of_lt (by omega)

/-! ## The start indices of a gather -/

/-- The start-index array of the gather that takes entry `L - d` of each row: row `r` holds `(r, L r - d, 0)`, the first
    two wrapped. -/
def startIdx (L : IVec S8192 32) (d : BitVec 32) : IVec S8192x3 32 :=
  concatenate S8192x3 1
    [⟨S8192x1, broadcastInDim S8192x1 ![0] bcast_S8192_S8192x1_0
        (select (cmpi .slt (iotaInDim S8192 32 0) (broadcastInDim S8192 ![] bcast_S_S8192 (constantI S_ 32 0#32)))
          (addi (iotaInDim S8192 32 0) (broadcastInDim S8192 ![] bcast_S_S8192 (constantI S_ 32 8192#32))) (iotaInDim S8192 32 0))⟩,
     ⟨S8192x1, broadcastInDim S8192x1 ![0] bcast_S8192_S8192x1_0
        (select (cmpi .slt (subi L (broadcastInDim S8192 ![] bcast_S_S8192 (constantI S_ 32 d)))
            (broadcastInDim S8192 ![] bcast_S_S8192 (constantI S_ 32 0#32)))
          (addi (subi L (broadcastInDim S8192 ![] bcast_S_S8192 (constantI S_ 32 d)))
            (broadcastInDim S8192 ![] bcast_S_S8192 (constantI S_ 32 32#32)))
          (subi L (broadcastInDim S8192 ![] bcast_S_S8192 (constantI S_ 32 d))))⟩,
     ⟨S8192x1, broadcastInDim S8192x1 ![] bcast_S_S8192x1 (constantI S_ 32 0#32)⟩]
    concatenates_S8192x1_S8192x1_S8192x1_S8192x3_d1

theorem v16_eq (x6 : IVec S8192 32) : val_main_v16 (F := Ideal) x6 = startIdx x6 1#32 := rfl
theorem v33_eq (x7 : IVec S8192 32) : val_main_v33 (F := Ideal) x7 = startIdx x7 1#32 := rfl
theorem v50_eq (x7 : IVec S8192 32) : val_main_v50 (F := Ideal) x7 = startIdx x7 2#32 := rfl

/-- A vector laid down a one-column matrix reads, at `(r, 0)`, the vector at `r`. -/
theorem col1_apply {α : Type} (v : S8192.Idx → α) (r : Fin 8192) (z : Fin 1) :
    broadcastInDim S8192x1 ![0] bcast_S8192_S8192x1_0 v (ix2 r z) = v (ix1 r) :=
  broadcastInDim_apply _ bcast_S8192_S8192x1_0 v (ix2 r z) (ix1 r) (fun a => match a with
    | ⟨0, _⟩ => by show r.val = if (8192 : Nat) = 1 then 0 else r.val; rw [if_neg (by decide)])

/-- ROW `r` OF THE START INDICES, when the row's word is position `k`: `(r, k, 0)`. -/
theorem startIdx_apply (L : IVec S8192 32) (d : BitVec 32) (r : Fin 8192) (k : Fin 32)
    (h : L (ix1 r) - d = BitVec.ofNat 32 k.val) :
    startIdx L d (ix2 r (0 : Fin 3)) = BitVec.ofNat 32 r.val ∧ startIdx L d (ix2 r (1 : Fin 3)) = BitVec.ofNat 32 k.val
      ∧ startIdx L d (ix2 r (2 : Fin 3)) = 0#32 := by
  have hr := r.isLt
  have hk := k.isLt
  refine ⟨?_, ?_, ?_⟩
  · unfold startIdx
    refine (concatenate_apply_piece (t := S8192x3) (1 : Fin 2) _ _ (ix2 r (0 : Fin 3)) 0 (by show (0 : ℕ) < 3; omega) S8192x1 _ rfl rfl 0 rfl
      (ix2 r (0 : Fin 1)) (fun b hb => by match b with | ⟨0, _⟩ => rfl | ⟨1, _⟩ => exact absurd rfl hb) rfl).trans ?_
    rw [col1_apply]
    show Scalar.select (IntOp.cmpi .slt (BitVec.ofNat 32 r.val) 0#32) (IntOp.addi (BitVec.ofNat 32 r.val) 8192#32)
      (BitVec.ofNat 32 r.val) = _
    exact wrap_small _ _ (by rw [toNat_ofNat_lt hr (by omega)]; omega)
  · unfold startIdx
    refine (concatenate_apply_piece (t := S8192x3) (1 : Fin 2) _ _ (ix2 r (1 : Fin 3)) 1 (by show (1 : ℕ) < 3; omega) S8192x1 _ rfl rfl 1 rfl
      (ix2 r (0 : Fin 1)) (fun b hb => by match b with | ⟨0, _⟩ => rfl | ⟨1, _⟩ => exact absurd rfl hb) rfl).trans ?_
    rw [col1_apply]
    show Scalar.select (IntOp.cmpi .slt (L (ix1 r) - d) 0#32) (IntOp.addi (L (ix1 r) - d) 32#32) (L (ix1 r) - d) = _
    rw [h]
    exact wrap_small _ _ (by rw [toNat_ofNat_lt hk (by omega)]; omega)
  · unfold startIdx
    refine (concatenate_apply_piece (t := S8192x3) (1 : Fin 2) _ _ (ix2 r (2 : Fin 3)) 2 (by show (2 : ℕ) < 3; omega) S8192x1 _ rfl rfl 2 rfl
      (ix2 r (0 : Fin 1)) (fun b hb => by match b with | ⟨0, _⟩ => rfl | ⟨1, _⟩ => exact absurd rfl hb) rfl).trans ?_
    rfl

/-! ## The gather read at a row -/

theorem opIdx0 (idx : IVec S8192x3 32) (r : Fin 8192) (f : Fin 256)
    (h0 : idx (ix2 r (0 : Fin 3)) = BitVec.ofNat 32 r.val) :
    (gather_S8192x32x512_S8192x3_S8192x256_1_01_n_n_012_1_11256.operandIdx (ix2 r f) idx (0 : Fin 3)).val = r.val := by
  have hr := r.isLt
  show gather_S8192x32x512_S8192x3_S8192x256_1_01_n_n_012_1_11256.start (ix2 r f) idx 0 + gather_S8192x32x512_S8192x3_S8192x256_1_01_n_n_012_1_11256.batchCoord (ix2 r f) 0 + gather_S8192x32x512_S8192x3_S8192x256_1_01_n_n_012_1_11256.offCoord (ix2 r f) 0 = _
  rw [GatherDims.batchCoord_eq_zero _ _ _ List.not_mem_nil,
    GatherDims.offCoord_eq_zero _ _ _ (fun h => ((GatherDims.mem_sKept _ _).mp h).1 (by decide))]
  unfold GatherDims.start
  rw [dif_pos (show (0 : Fin 3) ∈ gather_S8192x32x512_S8192x3_S8192x256_1_01_n_n_012_1_11256.startIndexMap by decide)]
  have hsi : gather_S8192x32x512_S8192x3_S8192x256_1_01_n_n_012_1_11256.siIdx (ix2 r f) ⟨List.idxOf (0 : Fin 3) gather_S8192x32x512_S8192x3_S8192x256_1_01_n_n_012_1_11256.startIndexMap,
      List.idxOf_lt_length_iff.2 (by decide)⟩ = ix2 r (0 : Fin 3) := by
    funext b; refine Fin.ext ?_
    match b with
    | ⟨0, _⟩ => rfl
    | ⟨1, _⟩ => rfl
  rw [hsi, h0, StableHlo.Predicate.toInt_ofNat_small _ (by omega)]
  show min (Int.toNat (r.val : Int)) (8192 - 1) + 0 + 0 = r.val
  rw [Int.toNat_natCast]; omega

theorem opIdx1 (idx : IVec S8192x3 32) (r : Fin 8192) (k : Fin 32) (f : Fin 256)
    (h1 : idx (ix2 r (1 : Fin 3)) = BitVec.ofNat 32 k.val) :
    (gather_S8192x32x512_S8192x3_S8192x256_1_01_n_n_012_1_11256.operandIdx (ix2 r f) idx (1 : Fin 3)).val = k.val := by
  have hk := k.isLt
  show gather_S8192x32x512_S8192x3_S8192x256_1_01_n_n_012_1_11256.start (ix2 r f) idx 1 + gather_S8192x32x512_S8192x3_S8192x256_1_01_n_n_012_1_11256.batchCoord (ix2 r f) 1 + gather_S8192x32x512_S8192x3_S8192x256_1_01_n_n_012_1_11256.offCoord (ix2 r f) 1 = _
  rw [GatherDims.batchCoord_eq_zero _ _ _ List.not_mem_nil,
    GatherDims.offCoord_eq_zero _ _ _ (fun h => ((GatherDims.mem_sKept _ _).mp h).1 (by decide))]
  unfold GatherDims.start
  rw [dif_pos (show (1 : Fin 3) ∈ gather_S8192x32x512_S8192x3_S8192x256_1_01_n_n_012_1_11256.startIndexMap by decide)]
  have hsi : gather_S8192x32x512_S8192x3_S8192x256_1_01_n_n_012_1_11256.siIdx (ix2 r f) ⟨List.idxOf (1 : Fin 3) gather_S8192x32x512_S8192x3_S8192x256_1_01_n_n_012_1_11256.startIndexMap,
      List.idxOf_lt_length_iff.2 (by decide)⟩ = ix2 r (1 : Fin 3) := by
    funext b; refine Fin.ext ?_
    match b with
    | ⟨0, _⟩ => rfl
    | ⟨1, _⟩ => rfl
  rw [hsi, h1, StableHlo.Predicate.toInt_ofNat_small _ (by omega)]
  show min (Int.toNat (k.val : Int)) (32 - 1) + 0 + 0 = k.val
  rw [Int.toNat_natCast]; omega

theorem opIdx2 (idx : IVec S8192x3 32) (r : Fin 8192) (f : Fin 256)
    (h2 : idx (ix2 r (2 : Fin 3)) = 0#32) :
    (gather_S8192x32x512_S8192x3_S8192x256_1_01_n_n_012_1_11256.operandIdx (ix2 r f) idx (2 : Fin 3)).val = f.val := by
  have hf := f.isLt
  show gather_S8192x32x512_S8192x3_S8192x256_1_01_n_n_012_1_11256.start (ix2 r f) idx 2 + gather_S8192x32x512_S8192x3_S8192x256_1_01_n_n_012_1_11256.batchCoord (ix2 r f) 2 + gather_S8192x32x512_S8192x3_S8192x256_1_01_n_n_012_1_11256.offCoord (ix2 r f) 2 = _
  rw [GatherDims.batchCoord_eq_zero _ _ _ List.not_mem_nil]
  have ho : gather_S8192x32x512_S8192x3_S8192x256_1_01_n_n_012_1_11256.offCoord (ix2 r f) 2 = f.val := by
    unfold GatherDims.offCoord
    rw [dif_pos (show (2 : Fin 3) ∈ gather_S8192x32x512_S8192x3_S8192x256_1_01_n_n_012_1_11256.sKept by decide)]
    rfl
  rw [ho]
  unfold GatherDims.start
  rw [dif_pos (show (2 : Fin 3) ∈ gather_S8192x32x512_S8192x3_S8192x256_1_01_n_n_012_1_11256.startIndexMap by decide)]
  have hsi : gather_S8192x32x512_S8192x3_S8192x256_1_01_n_n_012_1_11256.siIdx (ix2 r f) ⟨List.idxOf (2 : Fin 3) gather_S8192x32x512_S8192x3_S8192x256_1_01_n_n_012_1_11256.startIndexMap,
      List.idxOf_lt_length_iff.2 (by decide)⟩ = ix2 r (2 : Fin 3) := by
    funext b; refine Fin.ext ?_
    match b with
    | ⟨0, _⟩ => rfl
    | ⟨1, _⟩ => rfl
  rw [hsi, h2]
  show min (0#32 : BitVec 32).toInt.toNat (512 - 256) + 0 + f.val = f.val
  have : (0#32 : BitVec 32).toInt.toNat = 0 := by decide
  rw [this]; omega

/-- THE GATHER READ AT ROW `r`: with start index `(r, k, 0)` it reads the first 256 features of entry `k` of row `r`. -/
theorem gather_row (x : Seq) (idx : IVec S8192x3 32) (r : Fin 8192) (k : Fin 32) (f : Fin 256)
    (h0 : idx (ix2 r (0 : Fin 3)) = BitVec.ofNat 32 r.val) (h1 : idx (ix2 r (1 : Fin 3)) = BitVec.ofNat 32 k.val)
    (h2 : idx (ix2 r (2 : Fin 3)) = 0#32) :
    Host.gather gather_S8192x32x512_S8192x3_S8192x256_1_01_n_n_012_1_11256 x idx (ix2 r f) = feat x r k f := by
  unfold Host.gather feat
  congr 1
  funext a
  refine Fin.ext ?_
  match a with
  | ⟨0, _⟩ => exact opIdx0 idx r f h0
  | ⟨1, _⟩ => exact opIdx1 idx r k f h1
  | ⟨2, _⟩ => exact opIdx2 idx r f h2

/-! ## The input vector -/

/-- Three runs of 256 columns of a batch array joined along the columns, read at `(r, k)`. -/
theorem cat3_apply (A B C : S8192x256.Idx → EReal) (h : Shape.Concatenates [S8192x256, S8192x256, S8192x256] S8192x768 1)
    (r : Fin 8192) (k : Fin 768) :
    concatenate S8192x768 1 [⟨S8192x256, A⟩, ⟨S8192x256, B⟩, ⟨S8192x256, C⟩] h (ix2 r k)
      = if h₁ : k.val < 256 then A (ix2 r ⟨k.val, h₁⟩)
        else if h₂ : k.val < 512 then B (ix2 r ⟨k.val - 256, by omega⟩)
        else C (ix2 r ⟨k.val - 512, by have := k.isLt; omega⟩) :=
  cat3_cols (a := 8192) A B C h r k

/-- A gather of the reference takes entry `L - d` of each row, when the words are in range. -/
theorem take_apply (x : Seq) (L : Lens) (d : BitVec 32) (hL : InRange L d) (r : Fin 8192) (f : Fin 256) :
    Host.gather gather_S8192x32x512_S8192x3_S8192x256_1_01_n_n_012_1_11256 x (startIdx L d) (ix2 r f) = feat x r (pick L d r) f := by
  obtain ⟨e0, e1, e2⟩ := startIdx_apply L d r (pick L d r) (pick_spec hL r)
  exact gather_row x _ r _ f e0 e1 e2

/-- THE INPUT VECTOR of row `r`: the three gathered entries end to end and a zero run. -/
theorem v55_apply (x0 x1 : Seq) (x6 x7 : Lens) (hb : InRange x6 1#32) (h1 : InRange x7 1#32) (h2 : InRange x7 2#32)
    (r : Fin 8192) (k : Fin 1024) : val_main_v55 (F := Ideal) x0 x1 x6 x7 (ix2 r k) = xrow x0 x1 x6 x7 r k := by
  have hk := k.isLt
  unfold val_main_v55 xrow xcat
  by_cases c₃ : k.val < 768
  · rw [concatenate_pair_apply_left (s₁ := S8192x768) (s₂ := S8192x256) (1 : Fin 2) _ _ _ (ix2 r k) rfl
      (ix2 r (⟨k.val, c₃⟩ : Fin 768)) (fun b => by match b with | ⟨0, _⟩ => rfl | ⟨1, _⟩ => rfl)]
    unfold val_main_v52
    rw [cat3_apply]
    by_cases c₁ : k.val < 256
    · rw [dif_pos c₁, dif_pos c₁]
      exact take_apply x0 x6 1#32 hb r ⟨k.val, c₁⟩
    · rw [dif_neg c₁, dif_neg c₁]
      by_cases c₂ : k.val < 512
      · rw [dif_pos c₂, dif_pos c₂]
        exact take_apply x1 x7 1#32 h1 r _
      · rw [dif_neg c₂, dif_neg c₂, dif_pos c₃]
        exact take_apply x1 x7 2#32 h2 r _
  · rw [dif_neg (by omega), dif_neg (by omega), dif_neg c₃]
    rw [concatenate_pair_apply_right (s₁ := S8192x768) (s₂ := S8192x256) (1 : Fin 2) _ _ _ (ix2 r k) rfl rfl
      (ix2 r (⟨k.val - 768, by omega⟩ : Fin 256))
      (fun b hb => by match b with | ⟨0, _⟩ => rfl | ⟨1, _⟩ => exact absurd rfl hb)
      (by show (k.val - 768) + 768 = k.val; omega)]
    rw [val_main_v53_apply, val_main_cst_apply]
    exact Ideal.ofBits_zero_f32

/-! ## The gates -/

/-- THE GATES of row `r`. -/
theorem v59_apply (x0 x1 : Seq) (x2 : (⟨2, ![1024, 1024]⟩ : Shape).Idx → EReal) (x3 : (⟨1, ![1024]⟩ : Shape).Idx → EReal) (x6 x7 : Lens) (r : Fin 8192) (n : Fin 1024) :
    val_main_v59 (F := Ideal) x0 x1 x2 x3 x6 x7 (ix2 r n) = gates (fun k => val_main_v55 (F := Ideal) x0 x1 x6 x7 (ix2 r k)) x2 x3 n := by
  rw [val_main_v59_apply, val_main_v56_apply, val_main_v58_apply, val_main_v57_apply]
  unfold gates
  show (∑ k : Fin 1024, val_main_v55 (F := Ideal) x0 x1 x6 x7 (lidx_main_v56 (ix2 r n) k) * x2 (ridx_main_v56 (ix2 r n) k))
      + x3 (idx_main_v57 (idx_main_v58 (ix2 r n))) = _
  refine congrArg₂ (fun a b : EReal => a + b) ?_ ?_
  · refine Finset.sum_congr rfl fun k _ => ?_
    have el : lidx_main_v56 (ix2 r n) k = ix2 r k := funext fun a => by match a with | ⟨0, _⟩ => rfl | ⟨1, _⟩ => rfl
    have er : ridx_main_v56 (ix2 r n) k = ix2 k n := funext fun a => by match a with | ⟨0, _⟩ => rfl | ⟨1, _⟩ => rfl
    rw [el, er]
  · exact congrArg x3 (funext fun a => by match a with | ⟨0, _⟩ => rfl)

/-! ## Cell, hidden state, state -/

/-- The word of one. -/
theorem one_f32 : Ideal.ofBits .f32 0x3F800000#32 = 1 := by
  simp [Ideal.ofBits, Ideal.ieee, -EReal.coe_mul]; norm_num

/-- THE CELL of row `r`: the forget term is `0 · σ(f + 1) = 0`, and the written-out sigmoid is the sigmoid. -/
theorem v81_apply (x0 x1 : Seq) (x2 : (⟨2, ![1024, 1024]⟩ : Shape).Idx → EReal) (x3 : (⟨1, ![1024]⟩ : Shape).Idx → EReal) (x6 x7 : Lens) (r : Fin 8192) (u : Fin 256) :
    val_main_v81 (F := Ideal) x0 x1 x2 x3 x6 x7 (ix2 r u) = cell (fun k => val_main_v55 (F := Ideal) x0 x1 x6 x7 (ix2 r k)) x2 x3 u := by
  have hu := u.isLt
  rw [val_main_v81_apply, val_main_v72_apply, val_main_v54_apply, val_main_cst_17_apply, val_main_v80_apply,
    val_main_v78_apply, val_main_v77_apply, val_main_cst_22_apply, val_main_v76_apply, val_main_v75_apply,
    val_main_cst_21_apply, val_main_v74_apply, val_main_v73_apply, val_main_v79_apply, val_main_v60_apply,
    val_main_v61_apply]
  have e0 : idx_main_v60 (ix2 r u) = ix2 r (⟨u.val, by omega⟩ : Fin 1024) :=
    funext fun a => by match a with | ⟨0, _⟩ => rfl | ⟨1, _⟩ => rfl
  have e1 : idx_main_v61 (ix2 r u) = ix2 r (⟨256 + u.val, by omega⟩ : Fin 1024) :=
    funext fun a => by match a with | ⟨0, _⟩ => rfl | ⟨1, _⟩ => rfl
  rw [e0, e1, v59_apply, v59_apply]
  unfold cell
  simp only [Ideal.ofBits_def, Ideal.mulf_def, Ideal.addf_def, Ideal.hostDivf_def, Ideal.hostUnary_exp_def,
    Ideal.hostNegf_def, Ideal.negf_def, Ideal.hostUnary_tanh_def, Ideal.ofBits_zero_f32, one_f32, zero_mul, zero_add]
  rfl

/-- THE HIDDEN STATE of row `r`. -/
theorem v89_apply (x0 x1 : Seq) (x2 : (⟨2, ![1024, 1024]⟩ : Shape).Idx → EReal) (x3 : (⟨1, ![1024]⟩ : Shape).Idx → EReal) (x6 x7 : Lens) (r : Fin 8192) (u : Fin 256) :
    val_main_v89 (F := Ideal) x0 x1 x2 x3 x6 x7 (ix2 r u) = Cert.Spec.hidden (fun k => val_main_v55 (F := Ideal) x0 x1 x6 x7 (ix2 r k)) x2 x3 u := by
  have hu := u.isLt
  rw [val_main_v89_apply, val_main_v82_apply, v81_apply, val_main_v88_apply, val_main_v87_apply, val_main_cst_24_apply,
    val_main_v86_apply, val_main_v85_apply, val_main_cst_23_apply, val_main_v84_apply, val_main_v83_apply,
    val_main_v63_apply]
  have e3 : idx_main_v63 (ix2 r u) = ix2 r (⟨768 + u.val, by omega⟩ : Fin 1024) :=
    funext fun a => by match a with | ⟨0, _⟩ => rfl | ⟨1, _⟩ => rfl
  rw [e3, v59_apply]
  unfold Cert.Spec.hidden
  simp only [Ideal.ofBits_def, Ideal.mulf_def, Ideal.addf_def, Ideal.hostDivf_def, Ideal.hostUnary_exp_def,
    Ideal.hostNegf_def, Ideal.negf_def, Ideal.hostUnary_tanh_def, one_f32]
  rfl

/-- THE STATE of row `r`: cell then hidden. -/
theorem v90_apply (x0 x1 : Seq) (x2 : (⟨2, ![1024, 1024]⟩ : Shape).Idx → EReal) (x3 : (⟨1, ![1024]⟩ : Shape).Idx → EReal) (x6 x7 : Lens) (r : Fin 8192) (j : Fin 512) :
    val_main_v90 (F := Ideal) x0 x1 x2 x3 x6 x7 (ix2 r j) = state (fun k => val_main_v55 (F := Ideal) x0 x1 x6 x7 (ix2 r k)) x2 x3 j := by
  have hj := j.isLt
  unfold val_main_v90 state
  by_cases c : j.val < 256
  · rw [dif_pos c, concatenate_pair_apply_left (s₁ := S8192x256) (s₂ := S8192x256) (1 : Fin 2) _ _ _ (ix2 r j) rfl
      (ix2 r (⟨j.val, c⟩ : Fin 256)) (fun b => by match b with | ⟨0, _⟩ => rfl | ⟨1, _⟩ => rfl)]
    exact v81_apply x0 x1 x2 x3 x6 x7 r ⟨j.val, c⟩
  · rw [dif_neg c, concatenate_pair_apply_right (s₁ := S8192x256) (s₂ := S8192x256) (1 : Fin 2) _ _ _ (ix2 r j) rfl rfl
      (ix2 r (⟨j.val - 256, by omega⟩ : Fin 256))
      (fun b hb => by match b with | ⟨0, _⟩ => rfl | ⟨1, _⟩ => exact absurd rfl hb)
      (by show (j.val - 256) + 256 = j.val; omega)]
    exact v89_apply x0 x1 x2 x3 x6 x7 r ⟨j.val - 256, by omega⟩

/-! ## The logits -/

/-- THE LOGITS of row `r`. -/
theorem v94_apply (x0 x1 : Seq) (x2 : (⟨2, ![1024, 1024]⟩ : Shape).Idx → EReal) (x3 : (⟨1, ![1024]⟩ : Shape).Idx → EReal) (x4 : (⟨2, ![256, 4]⟩ : Shape).Idx → EReal) (x5 : (⟨1, ![4]⟩ : Shape).Idx → EReal) (x6 x7 : Lens)
    (r : Fin 8192) (q : Fin 4) :
    val_main_v94 (F := Ideal) x0 x1 x2 x3 x4 x5 x6 x7 (ix2 r q) = logits (fun k => val_main_v55 (F := Ideal) x0 x1 x6 x7 (ix2 r k)) x2 x3 x4 x5 q := by
  rw [val_main_v94_apply, val_main_v91_apply, val_main_v93_apply, val_main_v92_apply]
  unfold logits
  show (∑ u : Fin 256, val_main_v81 (F := Ideal) x0 x1 x2 x3 x6 x7 (lidx_main_v91 (ix2 r q) u) * x4 (ridx_main_v91 (ix2 r q) u))
      + x5 (idx_main_v92 (idx_main_v93 (ix2 r q))) = _
  refine congrArg₂ (fun a b : EReal => a + b) ?_ ?_
  · refine Finset.sum_congr rfl fun u _ => ?_
    have el : lidx_main_v91 (ix2 r q) u = ix2 r u := funext fun a => by match a with | ⟨0, _⟩ => rfl | ⟨1, _⟩ => rfl
    have er : ridx_main_v91 (ix2 r q) u = ix2 u q := funext fun a => by match a with | ⟨0, _⟩ => rfl | ⟨1, _⟩ => rfl
    rw [el, er, v81_apply]
  · exact congrArg x5 (funext fun a => by match a with | ⟨0, _⟩ => rfl)

/-! ## The two result arrays -/

/-- THE REFERENCE'S STATE ARRAY is Spec.lean's, when the length words are in range. -/
theorem v90_eq (x0 x1 : Seq) (x2 : (⟨2, ![1024, 1024]⟩ : Shape).Idx → EReal) (x3 : (⟨1, ![1024]⟩ : Shape).Idx → EReal) (x6 x7 : Lens) (hb : InRange x6 1#32) (h1 : InRange x7 1#32) (h2 : InRange x7 2#32) :
    val_main_v90 (F := Ideal) x0 x1 x2 x3 x6 x7 = stateArr x0 x1 x2 x3 x6 x7 := by
  funext i
  obtain ⟨r, j, rfl⟩ : ∃ (r : Fin 8192) (j : Fin 512), i = ix2 r j := ⟨i 0, i 1, eq_ix2 i⟩
  have hx : (fun k => val_main_v55 (F := Ideal) x0 x1 x6 x7 (ix2 r k)) = xrow x0 x1 x6 x7 r :=
    funext fun k => v55_apply x0 x1 x6 x7 hb h1 h2 r k
  rw [v90_apply, hx]
  rfl

/-- THE REFERENCE'S LOGITS ARRAY is Spec.lean's, when the length words are in range. -/
theorem v94_eq (x0 x1 : Seq) (x2 : (⟨2, ![1024, 1024]⟩ : Shape).Idx → EReal) (x3 : (⟨1, ![1024]⟩ : Shape).Idx → EReal) (x4 : (⟨2, ![256, 4]⟩ : Shape).Idx → EReal) (x5 : (⟨1, ![4]⟩ : Shape).Idx → EReal) (x6 x7 : Lens)
    (hb : InRange x6 1#32) (h1 : InRange x7 1#32) (h2 : InRange x7 2#32) :
    val_main_v94 (F := Ideal) x0 x1 x2 x3 x4 x5 x6 x7 = logitsArr x0 x1 x2 x3 x4 x5 x6 x7 := by
  funext i
  obtain ⟨r, q, rfl⟩ : ∃ (r : Fin 8192) (q : Fin 4), i = ix2 r q := ⟨i 0, i 1, eq_ix2 i⟩
  have hx : (fun k => val_main_v55 (F := Ideal) x0 x1 x6 x7 (ix2 r k)) = xrow x0 x1 x6 x7 r :=
    funext fun k => v55_apply x0 x1 x6 x7 hb h1 h2 r k
  rw [v94_apply, hx]
  rfl

end Cert.ReferenceIdeal.Row

end
-- ==== Proof.lean ====
/-
  The proof of `Cert.Claim`: the three frames, `preserves` (no rewrite was applied: it is `True`) and `algebraic`.

  The statement carries, beside the finiteness of the float arrays, the range of the two length arrays:
  `1 ≤ len_b ≤ 32` and `2 ≤ len_s ≤ 32`, so that the three positions `len_b - 1`, `len_s - 1`, `len_s - 2` the reference
  indexes its 32-entry sequences with are positions of them. Outside that range the two programs differ (the
  reference wraps a negative position around and clamps a large one; the kernel's indicator of a position that is
  none of 0..31 is zero everywhere). Finiteness is not used.

  Inside it both programs compute, for batch row `r`, Spec.lean's row functions of the row's input vector: the kernel
  block by block (KernelRow.lean, KernelWhole.lean: a sum against an indicator takes the entry), the reference through
  its gathers (RefRow.lean). Both result arrays are `stateArr` and `logitsArr` of the arguments.
-/
import proofs.«411941_j58884001628710_1_alg».proof.Defs
import proofs.«411941_j58884001628710_1_alg».proof.Proof.Gen.Kernel
import proofs.«411941_j58884001628710_1_alg».proof.Proof.Gen.Kernel.Frame
import proofs.«411941_j58884001628710_1_alg».proof.Proof.Gen.KernelIdeal
import proofs.«411941_j58884001628710_1_alg».proof.Proof.Gen.KernelIdeal.Frame
import proofs.«411941_j58884001628710_1_alg».proof.Proof.Gen.KernelIdeal.Value
import proofs.«411941_j58884001628710_1_alg».proof.Proof.Gen.ReferenceIdeal
import proofs.«411941_j58884001628710_1_alg».proof.Proof.RefStages
import proofs.«411941_j58884001628710_1_alg».proof.Proof.RefRun
import proofs.«411941_j58884001628710_1_alg».proof.Proof.Gen.Pre_finite_inputs
import proofs.«411941_j58884001628710_1_alg».proof.Proof.Spec
import proofs.«411941_j58884001628710_1_alg».proof.Proof.Range
import proofs.«411941_j58884001628710_1_alg».proof.Proof.KernelWhole
import proofs.«411941_j58884001628710_1_alg».proof.Proof.RefRow
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.StageRun.run (F := Ideal) m ρ)

theorem preserves : Cert.preserves_Kernel_KernelIdeal := trivial

/-- Both programs end with the state array and the logits array at Spec.lean's functions of the arguments. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg6)) 1#32 ∧ InRange (m ((c.tc : Thread Cert.KernelIdeal.nD Cert.KernelIdeal.τ).loc Cert.KernelIdeal.main_arg7)) 1#32
        ∧ InRange (m ((c.tc : Thread Cert.KernelIdeal.nD Cert.KernelIdeal.τ).loc Cert.KernelIdeal.main_arg7)) 2#32 :=
    fun c => Cert.Range.inRange_of_pre _ _ _ _ _ _ _ _ (hpre c)
  refine ⟨fun c => stateArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => logitsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact Cert.KernelIdeal.Whole.run m ρ (fun c => (hr c).1) (fun c => (hr c).2.1) (fun c => (hr c).2.2)
  · refine (θ_run Cert.ReferenceIdeal.defs _ _).mono (fun _ h c => ?_)
      (Cert.ReferenceIdeal.StageRun.run (F := Ideal) m' ρ')
    obtain ⟨a0, a1, a2, a3, a4, a5, a6, a7⟩ := hagree c
    refine ⟨(h c).1.trans ?_, (h c).2.1.trans ?_, (h c).2.2⟩
    · rw [a0, a1, a2, a3, a6, a7]
      exact Cert.ReferenceIdeal.Row.v90_eq _ _ _ _ _ _ (hr c).1 (hr c).2.1 (hr c).2.2
    · rw [a0, a1, a2, a3, a4, a5, a6, a7]
      exact Cert.ReferenceIdeal.Row.v94_eq _ _ _ _ _ _ _ _ (hr c).1 (hr c).2.1 (hr c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
